-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part2 {F : FTy → Type} [FloatOps F] (main_arg9 : FVec F S128x47 .f32) (main_arg10 : FVec F S47 .f32) (main_v33 : IVec S_ 1) : IVec S_ 1 :=
  let main_v34 : FVec F S128x47 .f32 := Host.absf main_arg9
  let main_cst_12 : FVec F S_ .f32 := constant S_ .f32 0x7F800000#32
  let main_v35 : FVec F S128x47 .f32 := broadcastInDim S128x47 ![] bcast_S_S128x47 main_cst_12
  let main_v36 : IVec S128x47 1 := cmpf .olt main_v34 main_v35
  let main_c_13 : IVec S_ 1 := constantI S_ 1 1#1
  let main_v37 : IVec S_ 1 := (fun x v => Host.reduce IntOp.andi x v reducesTo_S128x47_S_d0_1 h_S_) main_v36 main_c_13
  let main_v38 : IVec S_ 1 := andi main_v33 main_v37
  let main_v39 : FVec F S47 .f32 := Host.absf main_arg10
  let main_cst_14 : FVec F S_ .f32 := constant S_ .f32 0x7F800000#32
  let main_v40 : FVec F S47 .f32 := broadcastInDim S47 ![] bcast_S_S47 main_cst_14
  let main_v41 : IVec S47 1 := cmpf .olt main_v39 main_v40
  let main_c_15 : IVec S_ 1 := constantI S_ 1 1#1
  let main_v42 : IVec S_ 1 := (fun x v => Host.reduce IntOp.andi x v reducesTo_S47_S_d0 h_S_) main_v41 main_c_15
  let main_v43 : IVec S_ 1 := andi main_v38 main_v42
  main_v43

def fn_part1 {F : FTy → Type} [FloatOps F] (main_arg6 : FVec F S128x128 .f32) (main_arg7 : FVec F S128x128 .f32) (main_arg8 : FVec F S128 .f32) (main_arg9 : FVec F S128x47 .f32) (main_arg10 : FVec F S47 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x47 .f32) (main_arg10 : FVec F S47 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩
abbrev S1 : Shape := ⟨1, ![1]⟩
abbrev S50000x47 : Shape := ⟨2, ![50000, 47]⟩

abbrev nBuf : Space → Nat
  | .hbm => 69
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x47, .f32⟩
  | .hbm, ⟨10, _⟩ => ⟨S47, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S50000, .f32⟩
  | .hbm, ⟨15, _⟩ => ⟨S1600000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S50000x128, .bf16⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .bf16⟩
  | .hbm, ⟨34, _⟩ => ⟨S1600000x128, .f32⟩
  | .hbm, ⟨35, _⟩ => ⟨S_, .f32⟩
  | .hbm, ⟨36, _⟩ => ⟨S50000x128, .f32⟩
  | .hbm, ⟨37, _⟩ => ⟨S1600000x1, .i32⟩
  | .hbm, ⟨38, _⟩ => ⟨S50000x128, .f32⟩
  | .hbm, ⟨39, _⟩ => ⟨S1x128, .f32⟩
  | .hbm, ⟨40, _⟩ => ⟨S50000x128, .bf16⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .bf16⟩
  | .hbm, ⟨50, _⟩ => ⟨S1600000x128, .f32⟩
  | .hbm, ⟨51, _⟩ => ⟨S_, .f32⟩
  | .hbm, ⟨52, _⟩ => ⟨S50000x128, .f32⟩
  | .hbm, ⟨53, _⟩ => ⟨S1600000x1, .i32⟩
  | .hbm, ⟨54, _⟩ => ⟨S50000x128, .f32⟩
  | .hbm, ⟨55, _⟩ => ⟨S_, .f32⟩
  | .hbm, ⟨56, _⟩ => ⟨S128x128, .f32⟩
  | .hbm, ⟨57, _⟩ => ⟨S_, .i32⟩
  | .hbm, ⟨58, _⟩ => ⟨S1, .i32⟩
  | .hbm, ⟨59, _⟩ => ⟨S128x128, .f32⟩
  | .hbm, ⟨60, _⟩ => ⟨S_, .f32⟩
  | .hbm, ⟨61, _⟩ => ⟨S128, .f32⟩
  | .hbm, ⟨62, _⟩ => ⟨S_, .i32⟩
  | .hbm, ⟨63, _⟩ => ⟨S1, .i32⟩
  | .hbm, ⟨64, _⟩ => ⟨S128, .f32⟩
  | .hbm, ⟨65, _⟩ => ⟨S1x128, .f32⟩
  | .hbm, ⟨66, _⟩ => ⟨S1x128, .f32⟩
  | .hbm, ⟨67, _⟩ => ⟨S50000x128, .f32⟩
  | .hbm, ⟨68, _⟩ => ⟨S50000x47, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .bf16⟩
  | .local _ .vmem, ⟨10, _⟩ => ⟨S5000x128, .bf16⟩
  | .local _ .vmem, ⟨11, _⟩ => ⟨S5000x128, .bf16⟩
  | .local _ .vmem, ⟨12, _⟩ => ⟨S5000x128, .bf16⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_c_3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_8 : Ref sig .tc := ⟨.hbm, 55, rfl⟩
abbrev main_v34 : Ref sig .tc := ⟨.hbm, 56, rfl⟩
abbrev main_c_9 : Ref sig .tc := ⟨.hbm, 57, rfl⟩
abbrev main_v35 : Ref sig .tc := ⟨.hbm, 58, rfl⟩
abbrev main_v36 : Ref sig .tc := ⟨.hbm, 59, rfl⟩
abbrev main_cst_10 : Ref sig .tc := ⟨.hbm, 60, rfl⟩
abbrev main_v37 : Ref sig .tc := ⟨.hbm, 61, rfl⟩
abbrev main_c_11 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  shapeCasts_S50000_S50000x1 : S50000.ShapeCasts S50000x1
  bitsLt_bf16_f32 : FTy.bits .bf16 < FTy.bits .f32
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  bcast_S_S128x128 : S_.BroadcastsInDim S128x128 (![] : Fin 0 → Fin S128x128.rank)
  bcast_S_S1 : S_.BroadcastsInDim S1 (![] : Fin 0 → Fin S1.rank)
  bcast_S_S128 : S_.BroadcastsInDim S128 (![] : Fin 0 → Fin S128.rank)
  shapeCasts_S128x128_S128x128 : S128x128.ShapeCasts S128x128
  slices_S50000x128_S50000x47_0_0 : S50000x128.Slices ![0, 0] S50000x47
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  scatter_S128x128_S1_S128x47_01_n_1_0_wf : ScatterDims.WF S128x128 S1 S128x47 [0, 1] [] [1] 0
  scatter_S128_S1_S47_0_n_0_0_wf : ScatterDims.WF S128 S1 S47 [0] [] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .bf16 = 32 ∨ (Rect.block (s := S50000x128) S5000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .bf16 = 32 ∨ (Rect.block (s := S50000x128) S5000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S50000x128.size a
  hwx1_8 : ∀ i : grid1.Coords, EltTy.bits .f32 = 32 ∨ (Rect.block (s := S50000x128) S5000x128.size (cc1_transform_8 i) (hinb1_8 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S128x128_S1_S128x47_01_n_1_0 : ScatterDims S128x128 S1 S128x47 where
  updateWindowDims := [0, 1]
  insertedWindowDims := []
  scatterDimsToOperandDims := [1]
  indexVectorDim := 0
  wf := scatter_S128x128_S1_S128x47_01_n_1_0_wf
def scatter_S128_S1_S47_0_n_0_0 : ScatterDims S128 S1 S47 where
  updateWindowDims := [0]
  insertedWindowDims := []
  scatterDimsToOperandDims := [0]
  indexVectorDim := 0
  wf := scatter_S128_S1_S47_0_n_0_0_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v41) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v42) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩
abbrev S1x128 : Shape := ⟨2, ![1, 128]⟩
abbrev S50000x47 : Shape := ⟨2, ![50000, 47]⟩
abbrev S1x47 : Shape := ⟨2, ![1, 47]⟩

abbrev nBuf : Space → Nat
  | .hbm => 83
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x47, .f32⟩
  | .hbm, ⟨10, _⟩ => ⟨S47, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S50000x128, .f32⟩
  | .hbm, ⟨22, _⟩ => ⟨S1600000x1, .i32⟩
  | .hbm, ⟨23, _⟩ => ⟨S50000x128, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S50000, .f32⟩
  | .hbm, ⟨28, _⟩ => ⟨S1600000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S50000x128, .f32⟩
  | .hbm, ⟨56, _⟩ => ⟨S1600000x1, .i32⟩
  | .hbm, ⟨57, _⟩ => ⟨S50000x128, .f32⟩
  | .hbm, ⟨58, _⟩ => ⟨S_, .f32⟩
  | .hbm, ⟨59, _⟩ => ⟨S1600000, .f32⟩
  | .hbm, ⟨60, _⟩ => ⟨S_, .f32⟩
  | .hbm, ⟨61, _⟩ => ⟨S50000, .f32⟩
  | .hbm, ⟨62, _⟩ => ⟨S1600000x1, .i32⟩
  | .hbm, ⟨63, _⟩ => ⟨S50000, .f32⟩
  | .hbm, ⟨64, _⟩ => ⟨S_, .f32⟩
  | .hbm, ⟨65, _⟩ => ⟨S50000, .f32⟩
  | .hbm, ⟨66, _⟩ => ⟨S50000, .f32⟩
  | .hbm, ⟨67, _⟩ => ⟨S50000x1, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S50000x128, .f32⟩
  | .hbm, ⟨78, _⟩ => ⟨S50000x128, .f32⟩
  | .hbm, ⟨79, _⟩ => ⟨S50000x47, .f32⟩
  | .hbm, ⟨80, _⟩ => ⟨S1x47, .f32⟩
  | .hbm, ⟨81, _⟩ => ⟨S50000x47, .f32⟩
  | .hbm, ⟨82, _⟩ => ⟨S50000x47, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call0_cst : Ref sig .tc := ⟨.hbm, 42, rfl⟩
abbrev main_call0_v0 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call1_cst : Ref sig .tc := ⟨.hbm, 76, rfl⟩
abbrev main_call1_v0 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S47_S1x47_1 : S47.BroadcastsInDim S1x47 (![1] : Fin 1 → Fin S1x47.rank)
  bcast_S1x47_S50000x47_0_1 : S1x47.BroadcastsInDim S50000x47 (![0, 1] : Fin 2 → Fin S50000x47.rank)
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S50000x128_S128x128_S50000x128_1_0_0_1_n_n_wf : DotDims.WF S50000x128 S128x128 S50000x128 [1] [0] [0] [1] [] []
  dot_S50000x128_S128x47_S50000x47_1_0_0_1_n_n_wf : DotDims.WF S50000x128 S128x47 S50000x47 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x47_S50000x47_1_0_0_1_n_n : DotDims S50000x128 S128x47 S50000x47 where
  lhsContracting := [1]
  rhsContracting := [0]
  lhsNonContracting := [0]
  rhsNonContracting := [1]
  lhsBatch := []
  rhsBatch := []
  wf := dot_S50000x128_S128x47_S50000x47_1_0_0_1_n_n_wf

class Facts : Prop extends Facts₀ where

variable [Facts]
-- ==== Proof.LibPlainMatmul.lean ====
/-
  A plain matrix product read at an index.

  `DotDims.plain M K N` contracts axis 1 of an `M × K` operand with axis 0 of a `K × N` operand, with no batch
  axis. At the ideal values a `tpu.matmul` with these dimension numbers into the zero accumulator is, at
  `(i, j)`, the sum over `k : Fin K` of `l (i, k) * r (k, j)` on the extended reals: the library's sum over the
  contraction shape's indices (`Ideal.matmul_constant_zero_apply`) re-indexed by the one coordinate of that shape
  (`ValueIdx.contrEquiv1`), the operand indices read off the dimension numbers.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The left operand's index at result `j` and contraction coordinate `k` is `(j 0, k)`. -/
theorem plain_lhsIdx (M K N : ℕ) (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at result `j` and contraction coordinate `k` is `(k, j 1)`. -/
theorem plain_rhsIdx (M K N : ℕ) (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- A plain matmul into the zero accumulator, at an index: the sum of the products along the contracted axis. -/
theorem matmul_plain_zero_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

end Cert.Lib

end
-- ==== Proof.LibRowOps.lean ====
/-
  Rows of dense layers read at an index, at the ideal values.

  A dense layer acts on each row of its input by itself: a bias row is added to the row and the positive part taken
  (`reluRow`), and the row is multiplied into a weight matrix (`projRow`). The lemmas here read each of these steps
  at an entry `(r, j)` as one of the two row functions of row `r`: the host's `dot_general` with the plain dimension
  numbers and a `tpu.matmul` into the zero accumulator are the same sum along the contracted axis, a `[1, K]` row
  broadcast down an `[M, K]` array reads the row's entry, and the fused `max (x + b) z` forms are the ones a kernel
  body spells with a shape cast of the block and of the bias row.
-/
import Idealize.ShloMosaic.PureOps.Ideal
import Idealize.ShloMosaic.PureOps.Ideal.Laws
import Idealize.ShloMosaic.Lib.ValueIdx
import Idealize.ShloMosaic.Lib.Pipeline.Value
import proofs.«414205_j87892210745360_3_alg».proof.Proof.LibPlainMatmul

noncomputable section

namespace Cert.Lib

open Idealize.ShloMosaic Idealize.ShloMosaic.ValueIdx

/-- A row `x` of length `K` against the columns of a `[K, N]` matrix: entry `j` is the sum of the products along `k`. -/
def projRow {K N : ℕ} (x : Fin K → EReal) (W : (⟨2, ![K, N]⟩ : Shape).Idx → EReal) : Fin N → EReal :=
  fun j => ∑ k : Fin K, x k * W (ix2 k j)

/-- A row `x` plus the bias row `B` (an array of shape `[1, K]`), each entry then capped below by `z`. -/
def reluRow {K : ℕ} (x : Fin K → EReal) (B : (⟨2, ![1, K]⟩ : Shape).Idx → EReal) (z : EReal) : Fin K → EReal :=
  fun k => max (x k + B (ix2 (0 : Fin 1) k)) z

/-- The host's `dot_general` with the plain dimension numbers, at an index: the same sum along the contracted axis. -/
theorem dotGeneral_plain_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]
  rfl

/-- The host's plain `dot_general` at `(i, j)`: row `i` of the left operand against the right operand's columns. -/
theorem dotGeneral_rows_apply {M K N : ℕ} (prec : Option ContractPrecision)
    (l : FVec Ideal ⟨2, ![M, K]⟩ .f32) (w : FVec Ideal ⟨2, ![K, N]⟩ .f32) (i : Fin M) (j : Fin N) :
    Host.dotGeneral (DotDims.plain M K N) prec l w (ix2 i j) = projRow (fun k => l (ix2 i k)) w j :=
  dotGeneral_plain_apply M K N prec l w (ix2 i j)

/-- A `[1, K]` row broadcast down the rows of an `[M, K]` array reads, at `(r, k)`, the row's entry `k`. -/
theorem broadcastTo_row_apply {α : Type} {M K : ℕ} (b : (⟨2, ![1, K]⟩ : Shape).Idx → α)
    (h : (⟨2, ![1, K]⟩ : Shape).Broadcasts ⟨2, ![M, K]⟩) (r : Fin M) (k : Fin K) :
    broadcastTo ⟨2, ![M, K]⟩ b h (ix2 r k) = b (ix2 (0 : Fin 1) k) := by
  refine broadcastTo_apply b h (ix2 r k) (ix2 (0 : Fin 1) k) fun ax => ?_
  match ax with
  | ⟨0, _⟩ => rfl
  | ⟨1, _⟩ =>
    show k.val = if K = 1 then 0 else k.val
    split
    · have := k.isLt; omega
    · rfl

/-- A bias row added to every row of a block, then the positive part against the splat `z`, at `(r, k)`. -/
theorem biasRelu_apply {M K : ℕ} (x : FVec Ideal ⟨2, ![M, K]⟩ .f32) (b : FVec Ideal ⟨2, ![1, K]⟩ .f32)
    (h1 : (⟨2, ![M, K]⟩ : Shape).ShapeCasts ⟨2, ![M, K]⟩) (h2 : (⟨2, ![1, K]⟩ : Shape).ShapeCasts ⟨2, ![1, K]⟩)
    (h3 : (⟨2, ![1, K]⟩ : Shape).Broadcasts ⟨2, ![M, K]⟩) (z : Ideal .f32) (r : Fin M) (k : Fin K) :
    maximumf (addf (shapeCast ⟨2, ![M, K]⟩ x h1) (broadcastTo ⟨2, ![M, K]⟩ (shapeCast ⟨2, ![1, K]⟩ b h2) h3))
        (broadcast ⟨2, ![M, K]⟩ z) (ix2 r k)
      = reluRow (fun k => x (ix2 r k)) b z k := by
  rw [maximumf_apply, addf_apply, shapeCast_self, shapeCast_self, broadcast_apply, broadcastTo_row_apply]
  rfl

/-- A matrix product's entry plus the bias row's, then the positive part against the splat `z`, at `(r, j)`. -/
theorem addBiasRelu_apply {M N : ℕ} (y : FVec Ideal ⟨2, ![M, N]⟩ .f32) (b : FVec Ideal ⟨2, ![1, N]⟩ .f32)
    (h2 : (⟨2, ![1, N]⟩ : Shape).ShapeCasts ⟨2, ![1, N]⟩)
    (h3 : (⟨2, ![1, N]⟩ : Shape).Broadcasts ⟨2, ![M, N]⟩) (z : Ideal .f32) (r : Fin M) (j : Fin N) :
    maximumf (addf y (broadcastTo ⟨2, ![M, N]⟩ (shapeCast ⟨2, ![1, N]⟩ b h2) h3))
        (broadcast ⟨2, ![M, N]⟩ z) (ix2 r j)
      = reluRow (fun j => y (ix2 r j)) b z j := by
  rw [maximumf_apply, addf_apply, shapeCast_self, broadcast_apply, broadcastTo_row_apply]
  rfl

/-- A plain matmul into the zero accumulator at `(r, j)`: the row `r` of the left operand against column `j`. -/
theorem matmul_rows_apply {M K N : ℕ} (prec : Option ContractPrecision)
    (l : FVec Ideal ⟨2, ![M, K]⟩ .f32) (w : FVec Ideal ⟨2, ![K, N]⟩ .f32) (r : Fin M) (j : Fin N) :
    FloatOps.matmul (DotDims.plain M K N) prec l w (constant ⟨2, ![M, N]⟩ .f32 0x00000000#32) (ix2 r j)
      = projRow (fun k => l (ix2 r k)) w j :=
  matmul_plain_zero_apply M K N prec l w (ix2 r j)

/-! ## The same steps on whole arrays -/

/-- Every row of an `[M, K]` array plus the bias row, capped below by `z`. -/
def reluArr {M K : ℕ} (A : (⟨2, ![M, K]⟩ : Shape).Idx → EReal) (B : (⟨2, ![1, K]⟩ : Shape).Idx → EReal) (z : EReal) :
    (⟨2, ![M, K]⟩ : Shape).Idx → EReal :=
  fun i => reluRow (fun k => A (ix2 (i 0) k)) B z (i 1)

/-- Every row of an `[M, K]` array against the columns of a `[K, N]` matrix. -/
def projArr {M K N : ℕ} (X : (⟨2, ![M, K]⟩ : Shape).Idx → EReal) (W : (⟨2, ![K, N]⟩ : Shape).Idx → EReal) :
    (⟨2, ![M, N]⟩ : Shape).Idx → EReal :=
  fun i => projRow (fun k => X (ix2 (i 0) k)) W (i 1)

theorem reluArr_apply {M K : ℕ} (A : (⟨2, ![M, K]⟩ : Shape).Idx → EReal) (B : (⟨2, ![1, K]⟩ : Shape).Idx → EReal) (z : EReal)
    (r : Fin M) (k : Fin K) : reluArr A B z (ix2 r k) = reluRow (fun k => A (ix2 r k)) B z k := rfl

theorem projArr_apply {M K N : ℕ} (X : (⟨2, ![M, K]⟩ : Shape).Idx → EReal) (W : (⟨2, ![K, N]⟩ : Shape).Idx → EReal)
    (r : Fin M) (j : Fin N) : projArr X W (ix2 r j) = projRow (fun k => X (ix2 r k)) W j := rfl

/-- A kernel body's fused bias and positive part of a loaded block, as a whole-block function. -/
theorem kernel_biasRelu_eq {M K : ℕ} (x : FVec Ideal ⟨2, ![M, K]⟩ .f32) (b : FVec Ideal ⟨2, ![1, K]⟩ .f32)
    (h1 : (⟨2, ![M, K]⟩ : Shape).ShapeCasts ⟨2, ![M, K]⟩) (h2 : (⟨2, ![1, K]⟩ : Shape).ShapeCasts ⟨2, ![1, K]⟩)
    (h3 : (⟨2, ![1, K]⟩ : Shape).Broadcasts ⟨2, ![M, K]⟩) (z : Ideal .f32) :
    maximumf (addf (shapeCast ⟨2, ![M, K]⟩ x h1) (broadcastTo ⟨2, ![M, K]⟩ (shapeCast ⟨2, ![1, K]⟩ b h2) h3))
        (broadcast ⟨2, ![M, K]⟩ z) = reluArr x b z := by
  funext i
  obtain ⟨r, k, rfl⟩ : ∃ (r : Fin M) (k : Fin K), i = ix2 r k := ⟨i 0, i 1, eq_ix2 i⟩
  exact biasRelu_apply x b h1 h2 h3 z r k

/-- The same on a computed block (a matrix product), which the body does not shape-cast. -/
theorem kernel_addBiasRelu_eq {M N : ℕ} (y : FVec Ideal ⟨2, ![M, N]⟩ .f32) (b : FVec Ideal ⟨2, ![1, N]⟩ .f32)
    (h2 : (⟨2, ![1, N]⟩ : Shape).ShapeCasts ⟨2, ![1, N]⟩)
    (h3 : (⟨2, ![1, N]⟩ : Shape).Broadcasts ⟨2, ![M, N]⟩) (z : Ideal .f32) :
    maximumf (addf y (broadcastTo ⟨2, ![M, N]⟩ (shapeCast ⟨2, ![1, N]⟩ b h2) h3))
        (broadcast ⟨2, ![M, N]⟩ z) = reluArr y b z := by
  funext i
  obtain ⟨r, j, rfl⟩ : ∃ (r : Fin M) (j : Fin N), i = ix2 r j := ⟨i 0, i 1, eq_ix2 i⟩
  exact addBiasRelu_apply y b h2 h3 z r j

/-- A plain matmul into the zero accumulator, as a whole-block function. -/
theorem kernel_matmul_eq {M K N : ℕ} (prec : Option ContractPrecision)
    (l : FVec Ideal ⟨2, ![M, K]⟩ .f32) (w : FVec Ideal ⟨2, ![K, N]⟩ .f32) :
    FloatOps.matmul (DotDims.plain M K N) prec l w (constant ⟨2, ![M, N]⟩ .f32 0x00000000#32) = projArr l w := by
  funext i
  obtain ⟨r, j, rfl⟩ : ∃ (r : Fin M) (j : Fin N), i = ix2 r j := ⟨i 0, i 1, eq_ix2 i⟩
  exact matmul_rows_apply prec l w r j

/-- The host's plain `dot_general`, as a whole-array function. -/
theorem host_dot_eq {M K N : ℕ} (prec : Option ContractPrecision)
    (l : FVec Ideal ⟨2, ![M, K]⟩ .f32) (w : FVec Ideal ⟨2, ![K, N]⟩ .f32) :
    Host.dotGeneral (DotDims.plain M K N) prec l w = projArr l w := by
  funext i
  obtain ⟨r, j, rfl⟩ : ∃ (r : Fin M) (j : Fin N), i = ix2 r j := ⟨i 0, i 1, eq_ix2 i⟩
  exact dotGeneral_rows_apply prec l w r j

/-- The host's bias and positive part: a length-`K` bias broadcast to a row, then down the rows; the positive part
    against the broadcast zero word. The bias row is the bias vector viewed as a `[1, K]` array. -/
theorem host_biasRelu_eq {M K : ℕ} (A : FVec Ideal ⟨2, ![M, K]⟩ .f32) (b : FVec Ideal ⟨1, ![K]⟩ .f32)
    (h1 : (⟨2, ![1, K]⟩ : Shape).BroadcastsInDim ⟨2, ![M, K]⟩ ![0, 1])
    (h2 : (⟨1, ![K]⟩ : Shape).BroadcastsInDim ⟨2, ![1, K]⟩ ![1])
    (h3 : (⟨0, ![]⟩ : Shape).BroadcastsInDim ⟨2, ![M, K]⟩ ![])
    (h4 : (⟨1, ![K]⟩ : Shape).ShapeCasts ⟨2, ![1, K]⟩) (w : BitVec 32) :
    maximumf (addf A (broadcastInDim ⟨2, ![M, K]⟩ ![0, 1] h1 (broadcastInDim ⟨2, ![1, K]⟩ ![1] h2 b)))
        (broadcastInDim ⟨2, ![M, K]⟩ ![] h3 (constant ⟨0, ![]⟩ .f32 w))
      = reluArr A (shapeCast ⟨2, ![1, K]⟩ b h4) (Ideal.ofBits .f32 w) := by
  funext i
  obtain ⟨r, k, rfl⟩ : ∃ (r : Fin M) (k : Fin K), i = ix2 r k := ⟨i 0, i 1, eq_ix2 i⟩
  rw [maximumf_apply, addf_apply, reluArr_apply]
  have e1 : broadcastInDim ⟨2, ![M, K]⟩ ![0, 1] h1 (broadcastInDim ⟨2, ![1, K]⟩ ![1] h2 b) (ix2 r k) = b (ix1 k) := by
    rw [broadcastInDim_apply ![0, 1] h1 _ (ix2 r k) (ix2 (0 : Fin 1) k) (fun ax => by
      match ax with
      | ⟨0, _⟩ => rfl
      | ⟨1, _⟩ =>
        show k.val = if K = 1 then 0 else k.val
        split
        · have := k.isLt; omega
        · rfl)]
    exact broadcastInDim_apply ![1] h2 b (ix2 (0 : Fin 1) k) (ix1 k) (fun ax => by
      match ax with
      | ⟨0, _⟩ =>
        show k.val = if K = 1 then 0 else k.val
        split
        · have := k.isLt; omega
        · rfl)
  have e2 : broadcastInDim ⟨2, ![M, K]⟩ ![] h3 (constant ⟨0, ![]⟩ .f32 w) (ix2 r k) = Ideal.ofBits .f32 w :=
    broadcastInDim_apply ![] h3 _ (ix2 r k) ix0 (fun ax => ax.elim0)
  have e3 : shapeCast ⟨2, ![1, K]⟩ b h4 (ix2 (0 : Fin 1) k) = b (ix1 k) :=
    shapeCast_apply b h4 _ _ (by
      rw [Shape.rowMajor_val_two, Shape.rowMajor_val_one]
      show k.val = 0 * K + k.val
      omega)
  rw [e1, e2]
  show max (A (ix2 r k) + b (ix1 k)) (Ideal.ofBits .f32 w) = max (A (ix2 r k) + shapeCast ⟨2, ![1, K]⟩ b h4 (ix2 (0 : Fin 1) k)) (Ideal.ofBits .f32 w)
  rw [e3]

end Cert.Lib

end
-- ==== Proof.LibRowLayers.lean ====
/-
  Dense layers row by row: the spellings of this network beyond the positive-part layers.

  The last layer of each of the two networks adds its bias row and takes no positive part (`biasArr`). A kernel body
  narrows both operands of a matrix product to a shorter float format first: on the extended reals narrowing is the
  identity, so the product is still every row of the left operand against the right operand's columns. A kernel body
  broadcasts a bias row it has already made of the bias vector; the host broadcasts the bias vector to a row and the
  row down the rows. Both read the bias vector's entry `k` in column `k`.
-/
import Idealize.ShloMosaic.PureOps.Ideal
import Idealize.ShloMosaic.PureOps.Ideal.Laws
import Idealize.ShloMosaic.Lib.ValueIdx
import Idealize.ShloMosaic.Lib.Pipeline.Value
import proofs.«414205_j87892210745360_3_alg».proof.Proof.LibRowOps

noncomputable section

namespace Cert.Rows

open Idealize.ShloMosaic Idealize.ShloMosaic.ValueIdx Cert.Lib

/-- Every row of an `[M, K]` array plus the bias row. -/
def biasArr {M K : ℕ} (A : (⟨2, ![M, K]⟩ : Shape).Idx → EReal) (B : (⟨2, ![1, K]⟩ : Shape).Idx → EReal) :
    (⟨2, ![M, K]⟩ : Shape).Idx → EReal :=
  fun i => A i + B (ix2 (0 : Fin 1) (i 1))

theorem biasArr_apply {M K : ℕ} (A : (⟨2, ![M, K]⟩ : Shape).Idx → EReal) (B : (⟨2, ![1, K]⟩ : Shape).Idx → EReal)
    (r : Fin M) (k : Fin K) : biasArr A B (ix2 r k) = A (ix2 r k) + B (ix2 (0 : Fin 1) k) := rfl

/-- A product of two operands narrowed to a shorter float format, into the zero accumulator. -/
theorem matmul_narrowed_eq {M K N : ℕ} {ψ₁ ψ₂ : FTy} (prec : Option ContractPrecision)
    (l : FVec Ideal ⟨2, ![M, K]⟩ .f32) (w : FVec Ideal ⟨2, ![K, N]⟩ .f32)
    (h1 : ψ₁.bits < FTy.f32.bits) (h2 : ψ₂.bits < FTy.f32.bits) :
    FloatOps.matmul (DotDims.plain M K N) prec (truncf ψ₁ l h1) (truncf ψ₂ w h2)
        (constant ⟨2, ![M, N]⟩ .f32 0x00000000#32) = projArr l w := by
  funext i
  obtain ⟨r, j, rfl⟩ : ∃ (r : Fin M) (j : Fin N), i = ix2 r j := ⟨i 0, i 1, eq_ix2 i⟩
  rw [matmul_plain_zero_apply]
  rfl

/-- A bias row broadcast down the rows of a block and added, then the positive part against the splat `z`. -/
theorem rowRelu_eq {M N : ℕ} (y : FVec Ideal ⟨2, ![M, N]⟩ .f32) (B : FVec Ideal ⟨2, ![1, N]⟩ .f32)
    (h3 : (⟨2, ![1, N]⟩ : Shape).Broadcasts ⟨2, ![M, N]⟩) (z : Ideal .f32) :
    maximumf (addf y (broadcastTo ⟨2, ![M, N]⟩ B h3)) (broadcast ⟨2, ![M, N]⟩ z) = reluArr y B z := by
  funext i
  obtain ⟨r, j, rfl⟩ : ∃ (r : Fin M) (j : Fin N), i = ix2 r j := ⟨i 0, i 1, eq_ix2 i⟩
  rw [maximumf_apply, addf_apply, broadcast_apply, broadcastTo_row_apply]
  rfl

/-- A bias row broadcast down the rows of a block and added. -/
theorem rowBias_eq {M N : ℕ} (y : FVec Ideal ⟨2, ![M, N]⟩ .f32) (B : FVec Ideal ⟨2, ![1, N]⟩ .f32)
    (h3 : (⟨2, ![1, N]⟩ : Shape).Broadcasts ⟨2, ![M, N]⟩) :
    addf y (broadcastTo ⟨2, ![M, N]⟩ B h3) = biasArr y B := by
  funext i
  obtain ⟨r, j, rfl⟩ : ∃ (r : Fin M) (j : Fin N), i = ix2 r j := ⟨i 0, i 1, eq_ix2 i⟩
  rw [addf_apply, broadcastTo_row_apply]
  rfl

/-- A vector viewed as a one-row array reads the vector's entry `k` in column `k`. -/
theorem rowOfVec_apply {α : Type} {K : ℕ} (b : (⟨1, ![K]⟩ : Shape).Idx → α) (h4 : (⟨1, ![K]⟩ : Shape).ShapeCasts ⟨2, ![1, K]⟩)
    (k : Fin K) : shapeCast ⟨2, ![1, K]⟩ b h4 (ix2 (0 : Fin 1) k) = b (ix1 k) :=
  shapeCast_apply b h4 _ _ (by
    rw [Shape.rowMajor_val_two, Shape.rowMajor_val_one]
    show k.val = 0 * K + k.val
    omega)

/-- The host's bias: a length-`K` bias broadcast to a row, then down the rows, and added. -/
theorem host_bias_eq {M K : ℕ} (A : FVec Ideal ⟨2, ![M, K]⟩ .f32) (b : FVec Ideal ⟨1, ![K]⟩ .f32)
    (h1 : (⟨2, ![1, K]⟩ : Shape).BroadcastsInDim ⟨2, ![M, K]⟩ ![0, 1])
    (h2 : (⟨1, ![K]⟩ : Shape).BroadcastsInDim ⟨2, ![1, K]⟩ ![1])
    (h4 : (⟨1, ![K]⟩ : Shape).ShapeCasts ⟨2, ![1, K]⟩) :
    addf A (broadcastInDim ⟨2, ![M, K]⟩ ![0, 1] h1 (broadcastInDim ⟨2, ![1, K]⟩ ![1] h2 b))
      = biasArr A (shapeCast ⟨2, ![1, K]⟩ b h4) := by
  funext i
  obtain ⟨r, k, rfl⟩ : ∃ (r : Fin M) (k : Fin K), i = ix2 r k := ⟨i 0, i 1, eq_ix2 i⟩
  rw [addf_apply, biasArr_apply, rowOfVec_apply]
  have e1 : broadcastInDim ⟨2, ![M, K]⟩ ![0, 1] h1 (broadcastInDim ⟨2, ![1, K]⟩ ![1] h2 b) (ix2 r k) = b (ix1 k) := by
    rw [broadcastInDim_apply ![0, 1] h1 _ (ix2 r k) (ix2 (0 : Fin 1) k) (fun ax => by
      match ax with
      | ⟨0, _⟩ => rfl
      | ⟨1, _⟩ =>
        show k.val = if K = 1 then 0 else k.val
        split
        · have := k.isLt; omega
        · rfl)]
    exact broadcastInDim_apply ![1] h2 b (ix2 (0 : Fin 1) k) (ix1 k) (fun ax => by
      match ax with
      | ⟨0, _⟩ =>
        show k.val = if K = 1 then 0 else k.val
        split
        · have := k.isLt; omega
        · rfl)
  rw [e1]

end Cert.Rows

end
-- ==== Proof.LibKeepdims.lean ====
/-
  Column vectors made by `keepdims`: a length-`a` vector viewed as an `[a, 1]` column, and such a column broadcast along
  the rows of an `[a, b]` array. Read at an index by coordinates, the column holds the vector's entry of its row, and the
  broadcast holds the column's entry of its row at every position of the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.Spec.lean ====
/-
  A two-layer mean-aggregation graph network on whole arrays, at the ideal values.

  Every node averages the features its incoming edges carry: the aggregate `A` (for each node the sum over its incoming
  edges of the source node's row) is divided, row by row, by the node's in-degree capped below by one. A layer sends each
  node's own row and its averaged row through two weight matrices, adds a bias row and takes the positive part
  (`sageLayer`); a last linear layer gives the class scores (`head`).

  The average is spelt in two ways: as the quotient `A / max(deg, 1)` (`nbrMean`), and as the product of `A` with a
  column of reciprocals `1 / max(deg, 1)` computed once beforehand (`nbrScaled` of `recipCol`). On the extended reals the
  two agree for every `A` and every degree, finite or not: the divisor is at least one, so it is not zero, and off zero
  both `a / d` and `a * (1 / d)` are `a * d⁻¹` (`mul_recip_floor`). No finiteness of the inputs is used.

  The aggregate itself is a parameter here, an arbitrary function `agg` of the feature array: the two programs compute
  it by one and the same chain of gather and scatter-add over the edge lists.

  A score matrix padded with extra columns gives, in the columns it shares with the unpadded one, the same scores
  (`head_castLE`): a column of the product reads only that column of the weights and that entry of the bias row.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import proofs.«414205_j87892210745360_3_alg».proof.Proof.LibRowLayers
import proofs.«414205_j87892210745360_3_alg».proof.Proof.LibKeepdims

noncomputable section

namespace Cert.Sage

open Idealize.ShloMosaic Idealize.ShloMosaic.ValueIdx Cert.Lib Cert.Rows

/-- An `[M, K]` array of extended reals. -/
abbrev Arr (M K : ℕ) : Type := (⟨2, ![M, K]⟩ : Shape).Idx → EReal
/-- A length-`M` vector of extended reals. -/
abbrev Vec1 (M : ℕ) : Type := (⟨1, ![M]⟩ : Shape).Idx → EReal

/-! ## The degree's floor and the two spellings of the average -/

/-- A node's in-degree capped below by one. -/
def degFloor (d : EReal) : EReal := max d 1

theorem degFloor_ne_zero (d : EReal) : degFloor d ≠ 0 :=
  (lt_of_lt_of_le zero_lt_one (le_max_right d 1)).ne'

/-- Multiplying by the reciprocal of the capped degree is dividing by it, for every extended real `a`. -/
theorem mul_recip_floor (a d : EReal) : a * Ideal.div 1 (degFloor d) = Ideal.div a (degFloor d) := by
  have h := degFloor_ne_zero d
  unfold Ideal.div
  rw [if_neg h, if_neg h, one_mul]

/-- Each row of the aggregate divided by its node's capped degree. -/
def nbrMean {M K : ℕ} (A : Arr M K) (deg : Vec1 M) : Arr M K :=
  fun i => Ideal.div (A i) (degFloor (deg (ix1 (i 0))))

/-- The column of reciprocals of the capped degrees. -/
def recipCol {M : ℕ} (deg : Vec1 M) : Arr M 1 :=
  fun i => Ideal.div 1 (degFloor (deg (ix1 (i 0))))

/-- Each row of the aggregate times its node's entry of a column. -/
def nbrScaled {M K : ℕ} (A : Arr M K) (R : Arr M 1) : Arr M K :=
  fun i => A i * R (ix2 (i 0) (0 : Fin 1))

theorem nbrScaled_apply {M K : ℕ} (A : Arr M K) (R : Arr M 1) (r : Fin M) (k : Fin K) :
    nbrScaled A R (ix2 r k) = A (ix2 r k) * R (ix2 r (0 : Fin 1)) := rfl

/-- Scaling by the reciprocal column is the quotient by the capped degree. -/
theorem nbrScaled_recipCol {M K : ℕ} (A : Arr M K) (deg : Vec1 M) : nbrScaled A (recipCol deg) = nbrMean A deg := by
  funext i
  exact mul_recip_floor (A i) (deg (ix1 (i 0)))

/-! ## A layer and the score head -/

/-- One layer: own rows through `Ws`, averaged rows through `Wn`, the bias row, the positive part against `z`. -/
def sageLayer {M K N : ℕ} (X A' : Arr M K) (Ws Wn : Arr K N) (B : Arr 1 N) (z : EReal) : Arr M N :=
  reluArr (fun i => projArr X Ws i + projArr A' Wn i) B z

theorem sageLayer_apply {M K N : ℕ} (X A' : Arr M K) (Ws Wn : Arr K N) (B : Arr 1 N) (z : EReal) (r : Fin M) (j : Fin N) :
    sageLayer X A' Ws Wn B z (ix2 r j)
      = max (projRow (fun k => X (ix2 r k)) Ws j + projRow (fun k => A' (ix2 r k)) Wn j + B (ix2 (0 : Fin 1) j)) z := rfl

/-- The score head: every row through the weight matrix, plus the bias row. -/
def head {M K N : ℕ} (H : Arr M K) (Wf : Arr K N) (Bf : Arr 1 N) : Arr M N := biasArr (projArr H Wf) Bf

theorem head_apply {M K N : ℕ} (H : Arr M K) (Wf : Arr K N) (Bf : Arr 1 N) (r : Fin M) (j : Fin N) :
    head H Wf Bf (ix2 r j) = projRow (fun k => H (ix2 r k)) Wf j + Bf (ix2 (0 : Fin 1) j) := rfl

/-- A head padded with extra columns has, in the shared columns, the unpadded head's scores. -/
theorem head_castLE {M K N N' : ℕ} (H : Arr M K) (Wp : Arr K N') (Bp : Arr 1 N') (Wf : Arr K N) (Bf : Arr 1 N) (hN : N ≤ N')
    (hW : ∀ (k : Fin K) (j : Fin N), Wp (ix2 k (Fin.castLE hN j)) = Wf (ix2 k j))
    (hB : ∀ j : Fin N, Bp (ix2 (0 : Fin 1) (Fin.castLE hN j)) = Bf (ix2 (0 : Fin 1) j)) (r : Fin M) (j : Fin N) :
    head H Wp Bp (ix2 r (Fin.castLE hN j)) = head H Wf Bf (ix2 r j) := by
  rw [head_apply, head_apply, hB]
  unfold projRow
  simp only [hW]

/-- The hidden features after the first layer. -/
def hidden1 {M : ℕ} (agg : Arr M 128 → Arr M 128) (deg : Vec1 M) (X : Arr M 128) (Ws0 Wn0 : Arr 128 128) (B0 : Arr 1 128)
    (z : EReal) : Arr M 128 :=
  sageLayer X (nbrMean (agg X) deg) Ws0 Wn0 B0 z

/-- The whole network: two layers over the same graph, then the score head. -/
def net {M C : ℕ} (agg : Arr M 128 → Arr M 128) (deg : Vec1 M) (X : Arr M 128) (Ws0 Wn0 : Arr 128 128) (B0 : Arr 1 128)
    (Ws1 Wn1 : Arr 128 128) (B1 : Arr 1 128) (Wf : Arr 128 C) (Bf : Arr 1 C) (z : EReal) : Arr M C :=
  head (sageLayer (hidden1 agg deg X Ws0 Wn0 B0 z) (nbrMean (agg (hidden1 agg deg X Ws0 Wn0 B0 z)) deg) Ws1 Wn1 B1 z) Wf Bf

/-! ## The spellings of the two programs, on whole arrays -/

/-- A product into the zero accumulator whose right operand is narrowed to a shorter float format. -/
theorem matmul_narrowRight_eq {M K N : ℕ} {φ₁ ψ₂ : FTy} (prec : Option ContractPrecision)
    (l : FVec Ideal ⟨2, ![M, K]⟩ φ₁) (w : FVec Ideal ⟨2, ![K, N]⟩ .f32) (h2 : ψ₂.bits < FTy.f32.bits) :
    FloatOps.matmul (DotDims.plain M K N) prec l (truncf ψ₂ w h2) (constant ⟨2, ![M, N]⟩ .f32 0x00000000#32) = projArr l w := by
  funext i
  obtain ⟨r, j, rfl⟩ : ∃ (r : Fin M) (j : Fin N), i = ix2 r j := ⟨i 0, i 1, eq_ix2 i⟩
  rw [matmul_plain_zero_apply]
  rfl

/-- The aggregate block times the broadcast column of the reciprocals' block, as the body spells it. -/
theorem mulf_column_eq {M K : ℕ} (x1 : FVec Ideal ⟨2, ![M, K]⟩ .f32) (x2 : FVec Ideal ⟨2, ![M, 1]⟩ .f32)
    (hc1 : (⟨2, ![M, K]⟩ : Shape).ShapeCasts ⟨2, ![M, K]⟩) (hc2 : (⟨2, ![M, 1]⟩ : Shape).ShapeCasts ⟨2, ![M, 1]⟩)
    (hb2 : (⟨2, ![M, 1]⟩ : Shape).Broadcasts ⟨2, ![M, K]⟩) :
    mulf (shapeCast ⟨2, ![M, K]⟩ x1 hc1) (broadcastTo ⟨2, ![M, K]⟩ (shapeCast ⟨2, ![M, 1]⟩ x2 hc2) hb2) = nbrScaled x1 x2 := by
  funext i
  obtain ⟨r, k, rfl⟩ : ∃ (r : Fin M) (k : Fin K), i = ix2 r k := ⟨i 0, i 1, eq_ix2 i⟩
  rw [mulf_apply, shapeCast_self, shapeCast_self, broadcastTo_a1_ab_apply]
  rfl

/-- The host's quotient of the aggregate by the capped degree, broadcast to a column and along the rows. -/
theorem host_mean_eq {M K : ℕ} (A : FVec Ideal ⟨2, ![M, K]⟩ .f32) (deg : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, K]⟩ ![0, 1])
    (h3 : (⟨0, ![]⟩ : Shape).BroadcastsInDim ⟨1, ![M]⟩ ![]) :
    Host.divf A (broadcastInDim ⟨2, ![M, K]⟩ ![0, 1] h2 (broadcastInDim ⟨2, ![M, 1]⟩ ![0] h1
        (maximumf deg (broadcastInDim ⟨1, ![M]⟩ ![] h3 (constant ⟨0, ![]⟩ .f32 0x3F800000#32)))))
      = nbrMean A deg := by
  funext i
  obtain ⟨r, k, rfl⟩ : ∃ (r : Fin M) (k : Fin K), i = ix2 r k := ⟨i 0, i 1, eq_ix2 i⟩
  have e1 : broadcastInDim ⟨2, ![M, K]⟩ ![0, 1] h2 (broadcastInDim ⟨2, ![M, 1]⟩ ![0] h1
        (maximumf deg (broadcastInDim ⟨1, ![M]⟩ ![] h3 (constant ⟨0, ![]⟩ .f32 0x3F800000#32)))) (ix2 r k)
      = degFloor (deg (ix1 r)) := by
    rw [broadcastInDim_apply ![0, 1] h2 _ (ix2 r k) (ix2 r (0 : Fin 1)) (fun ax => by
      match ax with
      | ⟨0, _⟩ =>
        show r.val = if M = 1 then 0 else r.val
        split
        · have := r.isLt; omega
        · rfl
      | ⟨1, _⟩ => rfl)]
    rw [broadcastInDim_apply ![0] h1 _ (ix2 r (0 : Fin 1)) (ix1 r) (fun ax => by
      match ax with
      | ⟨0, _⟩ =>
        show r.val = if M = 1 then 0 else r.val
        split
        · have := r.isLt; omega
        · rfl)]
    rw [maximumf_apply, broadcastInDim_apply ![] h3 _ (ix1 r) ix0 (fun ax => ax.elim0), constant_apply,
      Ideal.ofBits_one_f32]
    rfl
  show Ideal.div (A (ix2 r k)) _ = _
  rw [e1]
  rfl

/-- The host's column of reciprocals: one over the capped degree, viewed as an `[M, 1]` column. -/
theorem host_recipCol_eq {M : ℕ} (deg : FVec Ideal ⟨1, ![M]⟩ .f32)
    (h3 : (⟨0, ![]⟩ : Shape).BroadcastsInDim ⟨1, ![M]⟩ ![]) (hc : (⟨1, ![M]⟩ : Shape).ShapeCasts ⟨2, ![M, 1]⟩) :
    shapeCast ⟨2, ![M, 1]⟩ (Host.divf (broadcastInDim ⟨1, ![M]⟩ ![] h3 (constant ⟨0, ![]⟩ .f32 0x3F800000#32))
        (maximumf deg (broadcastInDim ⟨1, ![M]⟩ ![] h3 (constant ⟨0, ![]⟩ .f32 0x3F800000#32)))) hc
      = recipCol deg := by
  funext i
  obtain ⟨r, u, rfl⟩ : ∃ (r : Fin M) (u : Fin 1), i = ix2 r u := ⟨i 0, i 1, eq_ix2 i⟩
  rw [shapeCast_a_a1_apply]
  show Ideal.div (broadcastInDim ⟨1, ![M]⟩ ![] h3 (constant (F := Ideal) ⟨0, ![]⟩ .f32 0x3F800000#32) (ix1 r))
      (max (deg (ix1 r)) (broadcastInDim ⟨1, ![M]⟩ ![] h3 (constant (F := Ideal) ⟨0, ![]⟩ .f32 0x3F800000#32) (ix1 r))) = _
  rw [broadcastInDim_apply ![] h3 _ (ix1 r) ix0 (fun ax => ax.elim0), constant_apply, Ideal.ofBits_one_f32]
  rfl

/-- The first kernel body's block: both products of narrowed operands, the bias row, the positive part. -/
theorem layerBlock_eq {M K N : ℕ} (x0 x1 : FVec Ideal ⟨2, ![M, K]⟩ .f32) (x2 : FVec Ideal ⟨2, ![M, 1]⟩ .f32)
    (ws wn : FVec Ideal ⟨2, ![K, N]⟩ .f32) (b : FVec Ideal ⟨2, ![1, N]⟩ .f32)
    (hc1 : (⟨2, ![M, K]⟩ : Shape).ShapeCasts ⟨2, ![M, K]⟩) (hc2 : (⟨2, ![M, 1]⟩ : Shape).ShapeCasts ⟨2, ![M, 1]⟩)
    (hb2 : (⟨2, ![M, 1]⟩ : Shape).Broadcasts ⟨2, ![M, K]⟩) (hc3 : (⟨2, ![1, N]⟩ : Shape).ShapeCasts ⟨2, ![1, N]⟩)
    (hb3 : (⟨2, ![1, N]⟩ : Shape).Broadcasts ⟨2, ![M, N]⟩) (hlt : FTy.bf16.bits < FTy.f32.bits) (z : Ideal .f32) :
    maximumf (addf (addf
        (FloatOps.matmul (DotDims.plain M K N) none (truncf .bf16 x0 hlt) (truncf .bf16 ws hlt) (constant ⟨2, ![M, N]⟩ .f32 0x00000000#32))
        (FloatOps.matmul (DotDims.plain M K N) none
          (truncf .bf16 (mulf (shapeCast ⟨2, ![M, K]⟩ x1 hc1) (broadcastTo ⟨2, ![M, K]⟩ (shapeCast ⟨2, ![M, 1]⟩ x2 hc2) hb2)) hlt)
          (truncf .bf16 wn hlt) (constant ⟨2, ![M, N]⟩ .f32 0x00000000#32)))
        (broadcastTo ⟨2, ![M, N]⟩ (shapeCast ⟨2, ![1, N]⟩ b hc3) hb3)) (broadcast ⟨2, ![M, N]⟩ z)
      = sageLayer x0 (nbrScaled x1 x2) ws wn b z := by
  rw [matmul_narrowed_eq, matmul_narrowed_eq, kernel_addBiasRelu_eq, mulf_column_eq]
  rfl

end Cert.Sage

end
-- ==== Proof.KBody.lean ====
/-
  The two kernel bodies' stored blocks, at the ideal values, as the network's layer functions of the loaded blocks.

  The first body narrows its operands to a shorter float format (the identity on the extended reals), multiplies the
  aggregate block by the broadcast column of reciprocals, sends the own rows and the scaled rows through the two weight
  matrices into zero accumulators, adds the bias row and takes the positive part: one layer (`sageLayer`) of its blocks,
  with the average in its product spelling (`nbrScaled`). The second body does the same with the hidden features' block
  and then sends the result through the padded head's weights and adds the padded bias row (`head`).
-/
import proofs.«414205_j87892210745360_3_alg».proof.Proof.Gen.KernelIdeal.Skeleton
import proofs.«414205_j87892210745360_3_alg».proof.Proof.Spec

noncomputable section

namespace Cert.KernelIdeal.Body

open Idealize.ShloMosaic Idealize.ShloMosaic.ValueIdx Cert.KernelIdeal Cert.KernelIdeal.Gen Cert.KernelIdeal.Facts₀
open Cert.Lib Cert.Rows Cert.Sage

/-- The bodies' contraction is the plain one: axis 1 of the left operand against axis 0 of the right. -/
theorem dot_plain : dot_S5000x128_S128x128_S5000x128_1_0_0_1_n_n = DotDims.plain 5000 128 128 := rfl

/-- The zero word the positive part is taken against. -/
abbrev zeroWord : EReal := Ideal.ofBits .f32 0x00000000#32

/-- A layer's block when the own rows arrive already narrowed (the second body loads them so). -/
theorem layerBlock_narrow_eq {M K N : ℕ} (x0 : FVec Ideal ⟨2, ![M, K]⟩ .bf16) (x1 : FVec Ideal ⟨2, ![M, K]⟩ .f32)
    (x2 : FVec Ideal ⟨2, ![M, 1]⟩ .f32) (ws wn : FVec Ideal ⟨2, ![K, N]⟩ .f32) (b : FVec Ideal ⟨2, ![1, N]⟩ .f32)
    (hc0 hc1 : (⟨2, ![M, K]⟩ : Shape).ShapeCasts ⟨2, ![M, K]⟩) (hc2 : (⟨2, ![M, 1]⟩ : Shape).ShapeCasts ⟨2, ![M, 1]⟩)
    (hb2 : (⟨2, ![M, 1]⟩ : Shape).Broadcasts ⟨2, ![M, K]⟩) (hc3 : (⟨2, ![1, N]⟩ : Shape).ShapeCasts ⟨2, ![1, N]⟩)
    (hb3 : (⟨2, ![1, N]⟩ : Shape).Broadcasts ⟨2, ![M, N]⟩) (hlt : FTy.bf16.bits < FTy.f32.bits) (z : Ideal .f32) :
    maximumf (addf (addf
        (FloatOps.matmul (DotDims.plain M K N) none (shapeCast ⟨2, ![M, K]⟩ x0 hc0) (truncf .bf16 ws hlt) (constant ⟨2, ![M, N]⟩ .f32 0x00000000#32))
        (FloatOps.matmul (DotDims.plain M K N) none
          (truncf .bf16 (mulf (shapeCast ⟨2, ![M, K]⟩ x1 hc1) (broadcastTo ⟨2, ![M, K]⟩ (shapeCast ⟨2, ![M, 1]⟩ x2 hc2) hb2)) hlt)
          (truncf .bf16 wn hlt) (constant ⟨2, ![M, N]⟩ .f32 0x00000000#32)))
        (broadcastTo ⟨2, ![M, N]⟩ (shapeCast ⟨2, ![1, N]⟩ b hc3) hb3)) (broadcast ⟨2, ![M, N]⟩ z)
      = sageLayer x0 (nbrScaled x1 x2) ws wn b z := by
  rw [matmul_narrowRight_eq, matmul_narrowed_eq, kernel_addBiasRelu_eq, mulf_column_eq, shapeCast_self]
  rfl

/-- The head's block: the narrowed hidden rows through the narrowed weights, plus the bias row. -/
theorem headBlock_eq {M K N : ℕ} (h : FVec Ideal ⟨2, ![M, K]⟩ .f32) (wf : FVec Ideal ⟨2, ![K, N]⟩ .f32) (bf : FVec Ideal ⟨2, ![1, N]⟩ .f32)
    (hcw : (⟨2, ![K, N]⟩ : Shape).ShapeCasts ⟨2, ![K, N]⟩) (hcb : (⟨2, ![1, N]⟩ : Shape).ShapeCasts ⟨2, ![1, N]⟩)
    (hbb : (⟨2, ![1, N]⟩ : Shape).Broadcasts ⟨2, ![M, N]⟩) (hlt : FTy.bf16.bits < FTy.f32.bits) :
    addf (FloatOps.matmul (DotDims.plain M K N) none (truncf .bf16 h hlt) (truncf .bf16 (shapeCast ⟨2, ![K, N]⟩ wf hcw) hlt)
        (constant ⟨2, ![M, N]⟩ .f32 0x00000000#32)) (broadcastTo ⟨2, ![M, N]⟩ (shapeCast ⟨2, ![1, N]⟩ bf hcb) hbb)
      = head h wf bf := by
  rw [matmul_narrowed_eq, shapeCast_self, shapeCast_self, rowBias_eq]
  rfl

/-- What the first body stores: one layer of its six loaded blocks. -/
theorem pay0_eq (x0 x1 : Vec Ideal S5000x128 .f32) (x2 : Vec Ideal S5000x1 .f32) (x3 x4 : Vec Ideal S128x128 .f32)
    (x5 : Vec Ideal S1x128 .f32) :
    k0_pay1 (F := Ideal) x0 x1 x2 x3 x4 x5 = sageLayer x0 (nbrScaled x1 x2) x3 x4 x5 zeroWord := by
  unfold k0_pay1
  dsimp only
  rw [dot_plain]
  exact layerBlock_eq x0 x1 x2 x3 x4 x5 _ _ _ _ _ _ _

/-- What the second body stores: the second layer of its blocks, then the padded head. -/
theorem pay1_eq (x0 : Vec Ideal S5000x128 .bf16) (x1 : Vec Ideal S5000x128 .f32) (x2 : Vec Ideal S5000x1 .f32)
    (x3 x4 : Vec Ideal S128x128 .f32) (x5 : Vec Ideal S1x128 .f32) (x6 : Vec Ideal S128x128 .f32) (x7 : Vec Ideal S1x128 .f32) :
    k1_pay1 (F := Ideal) x0 x1 x2 x3 x4 x5 x6 x7 = head (sageLayer x0 (nbrScaled x1 x2) x3 x4 x5 zeroWord) x6 x7 := by
  unfold k1_pay1
  dsimp only
  rw [dot_plain]
  have e := layerBlock_narrow_eq x0 x1 x2 x3 x4 x5 Facts₀.shapeCasts_S5000x128_S5000x128 Facts₀.shapeCasts_S5000x128_S5000x128
    Facts₀.shapeCasts_S5000x1_S5000x1 Facts₀.broadcasts_S5000x1_S5000x128 Facts₀.shapeCasts_S1x128_S1x128
    Facts₀.broadcasts_S1x128_S5000x128 Facts₀.bitsLt_bf16_f32 (Scalar.ofBits .f32 0x00000000#32)
  rw [e]
  exact headBlock_eq _ x6 x7 _ _ _ _

end Cert.KernelIdeal.Body

end
-- ==== Proof.KBlocks0.lean ====
/-
  Region 0: the hidden features' array after the first kernel's run.

  The first kernel walks ten row tiles of 5000 nodes. At tile `t` it loads rows `5000 t … 5000 t + 4999` of the
  features, of the aggregate and of the reciprocal column, the two weight matrices and the bias row whole, and stores
  one layer of these blocks. A layer acts on each node's row by itself, so the stored block is the same rows of the
  layer of the whole arrays; the ten tiles cover every row, so the array ends holding the layer of the whole arrays.
-/
import proofs.«414205_j87892210745360_3_alg».proof.Proof.Gen.KernelIdeal.Frame
import proofs.«414205_j87892210745360_3_alg».proof.Proof.KBody

set_option maxRecDepth 16384

noncomputable section

namespace Cert.KernelIdeal.Blocks

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Body Cert.Lib Cert.Rows Cert.Sage

variable (V : (c : Dev nD) → (b : Ref sig .tc) → Buf (Elt Ideal) ((c : Thread nD τ).loc b))

theorem hz : (![0, 0] : Fin 2 → Nat) = fun _ => 0 := funext fun a => by fin_cases a <;> rfl

/-- A layer reads, for the entry `(r, j)`, only row `r` of the features, of the aggregate and of the column: two
    index pairs whose rows hold the same values and whose columns agree give the same entry. -/
theorem sageLayer_rows {M M' K N : ℕ} (X A : Arr M K) (R : Arr M 1) (X' A' : Arr M' K) (R' : Arr M' 1)
    (Ws Wn : Arr K N) (B : Arr 1 N) (z : EReal) (y : (⟨2, ![M', N]⟩ : Shape).Idx) (i : (⟨2, ![M, N]⟩ : Shape).Idx)
    (h1 : (y 1 : Fin N) = i 1)
    (hX : ∀ k : Fin K, X' (ix2 (y 0) k) = X (ix2 (i 0) k)) (hA : ∀ k : Fin K, A' (ix2 (y 0) k) = A (ix2 (i 0) k))
    (hR : R' (ix2 (y 0) (0 : Fin 1)) = R (ix2 (i 0) (0 : Fin 1))) :
    sageLayer X' (nbrScaled A' R') Ws Wn B z y = sageLayer X (nbrScaled A R) Ws Wn B z i := by
  show max (projRow (fun k => X' (ix2 (y 0) k)) Ws (y 1) + projRow (fun k => nbrScaled A' R' (ix2 (y 0) k)) Wn (y 1)
      + B (ix2 (0 : Fin 1) (y 1))) z
    = max (projRow (fun k => X (ix2 (i 0) k)) Ws (i 1) + projRow (fun k => nbrScaled A R (ix2 (i 0) k)) Wn (i 1)
      + B (ix2 (0 : Fin 1) (i 1))) z
  have e : ∀ k : Fin K, nbrScaled A' R' (ix2 (y 0) k) = nbrScaled A R (ix2 (i 0) k) := fun k => by
    show A' (ix2 (y 0) k) * R' (ix2 (y 0) (0 : Fin 1)) = A (ix2 (i 0) k) * R (ix2 (i 0) (0 : Fin 1))
    rw [hA, hR]
  simp only [hX, e, h1]

/-! ## Region 0 -/

/-- The printed index maps over the ten tiles: the row windows sit at tile `t`, the whole-array windows at the origin. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The arrays region 0 reads, as it finds them. -/
abbrev arrX0 (c : Dev nD) : Vec Ideal S50000x128 .f32 := V c main_arg0
abbrev arrA0 (c : Dev nD) : Vec Ideal S50000x128 .f32 := V c main_v20
abbrev arrR0 (c : Dev nD) : Vec Ideal S50000x1 .f32 := V c main_v8
abbrev arrWs0 (c : Dev nD) : Vec Ideal S128x128 .f32 := V c main_arg3
abbrev arrWn0 (c : Dev nD) : Vec Ideal S128x128 .f32 := V c main_arg4
abbrev arrB0 (c : Dev nD) : Vec Ideal S1x128 .f32 := V c main_v21

/-- Their blocks at tile `t`. -/
abbrev blkX0 (c : Dev nD) (t : Fin cfg0.N) : Vec Ideal S5000x128 .f32 := iblk0 V c 0 t
abbrev blkA0 (c : Dev nD) (t : Fin cfg0.N) : Vec Ideal S5000x128 .f32 := iblk0 V c 1 t
abbrev blkR0 (c : Dev nD) (t : Fin cfg0.N) : Vec Ideal S5000x1 .f32 := iblk0 V c 2 t
abbrev blkWs0 (c : Dev nD) (t : Fin cfg0.N) : Vec Ideal S128x128 .f32 := iblk0 V c 3 t
abbrev blkWn0 (c : Dev nD) (t : Fin cfg0.N) : Vec Ideal S128x128 .f32 := iblk0 V c 4 t
abbrev blkB0 (c : Dev nD) (t : Fin cfg0.N) : Vec Ideal S1x128 .f32 := iblk0 V c 5 t

/-- The hidden features: one layer of the arrays region 0 reads. -/
def layer0 (c : Dev nD) : Vec Ideal S50000x128 .bf16 :=
  sageLayer (arrX0 V c) (nbrScaled (arrA0 V c) (arrR0 V c)) (arrWs0 V c) (arrWn0 V c) (arrB0 V c) zeroWord

/-- The weight and bias windows' blocks are the whole arrays. -/
theorem blkWs0_eq (c : Dev nD) (t : Fin cfg0.N) : blkWs0 V c t = arrWs0 V c := by
  obtain ⟨-, -, -, -, -, -, e0, e1, -⟩ := idx_facts0 t
  funext y
  show V c main_arg3 (((cfg0.win 3).blk t).view.emb y) = V c main_arg3 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem blkWn0_eq (c : Dev nD) (t : Fin cfg0.N) : blkWn0 V c t = arrWn0 V c := by
  obtain ⟨-, -, -, -, -, -, -, -, e0, e1, -⟩ := idx_facts0 t
  funext y
  show V c main_arg4 (((cfg0.win 4).blk t).view.emb y) = V c main_arg4 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem blkB0_eq (c : Dev nD) (t : Fin cfg0.N) : blkB0 V c t = arrB0 V c := by
  obtain ⟨-, -, -, -, -, -, -, -, -, -, e0, e1, -⟩ := idx_facts0 t
  funext y
  show V c main_v21 (((cfg0.win 5).blk t).view.emb y) = V c main_v21 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- WHAT TILE `t` WRITES BACK is its rows of the layer of the whole arrays. -/
theorem flushed0_eq (c : Dev nD) (t : Fin cfg0.N) :
    (dat0 V c).flushed 6 t = ((cfg0.win 6).blk t).view.read (Elt Ideal) (layer0 V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz,
    View.ld_unit_zero (S := S128x128) hz, View.ld_unit_zero (S := S1x128) hz]
  rw [pay0_eq (blkX0 V c t) (blkA0 V c t) (blkR0 V c t) (blkWs0 V c t) (blkWn0 V c t) (blkB0 V c t),
    blkWs0_eq, blkWn0_eq, blkB0_eq]
  obtain ⟨e00, e01, e10, e11, e20, e21, -, -, -, -, -, -, e60, e61⟩ := idx_facts0 t
  funext y
  show sageLayer (blkX0 V c t) (nbrScaled (blkA0 V c t) (blkR0 V c t)) (arrWs0 V c) (arrWn0 V c) (arrB0 V c) zeroWord y
    = sageLayer (arrX0 V c) (nbrScaled (arrA0 V c) (arrR0 V c)) (arrWs0 V c) (arrWn0 V c) (arrB0 V c) zeroWord
        (((cfg0.win 6).blk t).view.emb y)
  refine sageLayer_rows (arrX0 V c) (arrA0 V c) (arrR0 V c) (blkX0 V c t) (blkA0 V c t) (blkR0 V c t) (arrWs0 V c) (arrWn0 V c)
    (arrB0 V c) zeroWord y (((cfg0.win 6).blk t).view.emb y) ?_ ?_ ?_ ?_
  · apply Fin.ext
    show (y 1).val = win0_6.index t (1 : Fin 2) * 128 + 1 * (y 1).val
    omega
  · intro k
    show V c main_arg0 (((cfg0.win 0).blk t).view.emb (ix2 (y 0) k)) = V c main_arg0 (ix2 ((((cfg0.win 6).blk t).view.emb y) 0) k)
    refine congrArg _ (funext fun a => Fin.ext ?_)
    match a with
    | ⟨0, _⟩ => show win0_0.index t (0 : Fin 2) * 5000 + 1 * (y 0).val = win0_6.index t (0 : Fin 2) * 5000 + 1 * (y 0).val; omega
    | ⟨1, _⟩ => show win0_0.index t (1 : Fin 2) * 128 + 1 * k.val = k.val; omega
  · intro k
    show V c main_v20 (((cfg0.win 1).blk t).view.emb (ix2 (y 0) k)) = V c main_v20 (ix2 ((((cfg0.win 6).blk t).view.emb y) 0) k)
    refine congrArg _ (funext fun a => Fin.ext ?_)
    match a with
    | ⟨0, _⟩ => show win0_1.index t (0 : Fin 2) * 5000 + 1 * (y 0).val = win0_6.index t (0 : Fin 2) * 5000 + 1 * (y 0).val; omega
    | ⟨1, _⟩ => show win0_1.index t (1 : Fin 2) * 128 + 1 * k.val = k.val; omega
  · show V c main_v8 (((cfg0.win 2).blk t).view.emb (ix2 (y 0) (0 : Fin 1))) = V c main_v8 (ix2 ((((cfg0.win 6).blk t).view.emb y) 0) (0 : Fin 1))
    refine congrArg _ (funext fun a => Fin.ext ?_)
    match a with
    | ⟨0, _⟩ => show win0_2.index t (0 : Fin 2) * 5000 + 1 * (y 0).val = win0_6.index t (0 : Fin 2) * 5000 + 1 * (y 0).val; omega
    | ⟨1, _⟩ => show win0_2.index t (1 : Fin 2) * 1 + 1 * 0 = 0; omega

/-- An index of the array is in tile `t`'s block iff each coordinate is in the block's range on its axis. -/
theorem mem_blk0 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v22).slice (win0_6.rect t)).set ↔ _
  rw [View.set_slice_whole, Rect.mem_set_unit]
  exact Iff.rfl

/-- Every row lies in the tile of its quotient by 5000. -/
theorem cover0 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  refine ⟨⟨(i 0).val / 5000, by show (i 0).val / 5000 < 10; omega⟩, flush0_6 _, ?_⟩
  rw [mem_blk0]
  obtain ⟨-, -, -, -, -, -, -, -, -, -, -, -, e60, e61⟩ := idx_facts0 ⟨(i 0).val / 5000, by show (i 0).val / 5000 < 10; omega⟩
  intro a
  match a with
  | ⟨0, _⟩ =>
    show win0_6.index _ (0 : Fin 2) * 5000 ≤ (i 0).val ∧ (i 0).val < win0_6.index _ (0 : Fin 2) * 5000 + 5000
    rw [e60]
    show (i 0).val / 5000 * 5000 ≤ (i 0).val ∧ (i 0).val < (i 0).val / 5000 * 5000 + 5000
    omega
  | ⟨1, _⟩ =>
    show win0_6.index _ (1 : Fin 2) * 128 ≤ (i 1).val ∧ (i 1).val < win0_6.index _ (1 : Fin 2) * 128 + 128
    rw [e61]
    omega

/-- THE ARRAY after region 0: the layer of the arrays the region reads. -/
theorem final0 (c : Dev nD) : (dat0 V c).arrAt 6 cfg0.N = layer0 V c :=
  (dat0 V c).arrAt_eq_of_cover 6 (layer0 V c) (fun t _ => flushed0_eq V c t) cover0

end Cert.KernelIdeal.Blocks

end
-- ==== Proof.KBlocks1.lean ====
/-
  Region 1: the padded score array after the second kernel's run.

  The second kernel walks the same ten row tiles. At tile `t` it loads rows `5000 t … 5000 t + 4999` of the hidden
  features, of their aggregate and of the reciprocal column, and the layer's and the padded head's weights and bias
  rows whole, and stores the head of one layer of these blocks. Both the layer and the head act on each node's row by
  itself, so the stored block is the same rows of the head of the layer of the whole arrays; the ten tiles cover every
  row, so the array ends holding that.
-/
import proofs.«414205_j87892210745360_3_alg».proof.Proof.KBlocks0

set_option maxRecDepth 16384

noncomputable section

namespace Cert.KernelIdeal.Blocks

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Body Cert.Lib Cert.Rows Cert.Sage

variable (V : (c : Dev nD) → (b : Ref sig .tc) → Buf (Elt Ideal) ((c : Thread nD τ).loc b))

/-- The head of a layer reads, for the entry `(r, j)`, only row `r` of the layer's three row-wise inputs. -/
theorem headLayer_rows {M M' K N N' : ℕ} (X A : Arr M K) (R : Arr M 1) (X' A' : Arr M' K) (R' : Arr M' 1)
    (Ws Wn : Arr K N) (B : Arr 1 N) (z : EReal) (Wp : Arr N N') (Bp : Arr 1 N')
    (y : (⟨2, ![M', N']⟩ : Shape).Idx) (i : (⟨2, ![M, N']⟩ : Shape).Idx)
    (h1 : (y 1 : Fin N') = i 1)
    (hX : ∀ k : Fin K, X' (ix2 (y 0) k) = X (ix2 (i 0) k)) (hA : ∀ k : Fin K, A' (ix2 (y 0) k) = A (ix2 (i 0) k))
    (hR : R' (ix2 (y 0) (0 : Fin 1)) = R (ix2 (i 0) (0 : Fin 1))) :
    head (sageLayer X' (nbrScaled A' R') Ws Wn B z) Wp Bp y = head (sageLayer X (nbrScaled A R) Ws Wn B z) Wp Bp i := by
  show projRow (fun k => sageLayer X' (nbrScaled A' R') Ws Wn B z (ix2 (y 0) k)) Wp (y 1) + Bp (ix2 (0 : Fin 1) (y 1))
    = projRow (fun k => sageLayer X (nbrScaled A R) Ws Wn B z (ix2 (i 0) k)) Wp (i 1) + Bp (ix2 (0 : Fin 1) (i 1))
  have e : ∀ k : Fin N, sageLayer X' (nbrScaled A' R') Ws Wn B z (ix2 (y 0) k)
      = sageLayer X (nbrScaled A R) Ws Wn B z (ix2 (i 0) k) :=
    fun k => sageLayer_rows X A R X' A' R' Ws Wn B z (ix2 (y 0) k) (ix2 (i 0) k) rfl hX hA hR
  simp only [e, h1]

/-! ## Region 1 -/

/-- The printed index maps over the ten tiles: the row windows sit at tile `t`, the whole-array windows at the origin. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- The arrays region 1 reads, as it finds them. -/
abbrev arrX1 (c : Dev nD) : Vec Ideal S50000x128 .bf16 := V c main_v22
abbrev arrA1 (c : Dev nD) : Vec Ideal S50000x128 .f32 := V c main_v33
abbrev arrR1 (c : Dev nD) : Vec Ideal S50000x1 .f32 := V c main_v8
abbrev arrWs1 (c : Dev nD) : Vec Ideal S128x128 .f32 := V c main_arg6
abbrev arrWn1 (c : Dev nD) : Vec Ideal S128x128 .f32 := V c main_arg7
abbrev arrB1 (c : Dev nD) : Vec Ideal S1x128 .f32 := V c main_v40
abbrev arrWp1 (c : Dev nD) : Vec Ideal S128x128 .f32 := V c main_v36
abbrev arrBp1 (c : Dev nD) : Vec Ideal S1x128 .f32 := V c main_v41

/-- Their blocks at tile `t`. -/
abbrev blkX1 (c : Dev nD) (t : Fin cfg1.N) : Vec Ideal S5000x128 .bf16 := iblk1 V c 0 t
abbrev blkA1 (c : Dev nD) (t : Fin cfg1.N) : Vec Ideal S5000x128 .f32 := iblk1 V c 1 t
abbrev blkR1 (c : Dev nD) (t : Fin cfg1.N) : Vec Ideal S5000x1 .f32 := iblk1 V c 2 t
abbrev blkWs1 (c : Dev nD) (t : Fin cfg1.N) : Vec Ideal S128x128 .f32 := iblk1 V c 3 t
abbrev blkWn1 (c : Dev nD) (t : Fin cfg1.N) : Vec Ideal S128x128 .f32 := iblk1 V c 4 t
abbrev blkB1 (c : Dev nD) (t : Fin cfg1.N) : Vec Ideal S1x128 .f32 := iblk1 V c 5 t
abbrev blkWp1 (c : Dev nD) (t : Fin cfg1.N) : Vec Ideal S128x128 .f32 := iblk1 V c 6 t
abbrev blkBp1 (c : Dev nD) (t : Fin cfg1.N) : Vec Ideal S1x128 .f32 := iblk1 V c 7 t

/-- The padded scores: the padded head of one layer of the arrays region 1 reads. -/
def layer1 (c : Dev nD) : Vec Ideal S50000x128 .f32 :=
  head (sageLayer (arrX1 V c) (nbrScaled (arrA1 V c) (arrR1 V c)) (arrWs1 V c) (arrWn1 V c) (arrB1 V c) zeroWord)
    (arrWp1 V c) (arrBp1 V c)

/-- The weight and bias windows' blocks are the whole arrays. -/
theorem blkWs1_eq (c : Dev nD) (t : Fin cfg1.N) : blkWs1 V c t = arrWs1 V c := by
  obtain ⟨-, -, -, -, -, -, e0, e1, -⟩ := idx_facts1 t
  funext y
  show V c main_arg6 (((cfg1.win 3).blk t).view.emb y) = V c main_arg6 y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem blkWn1_eq (c : Dev nD) (t : Fin cfg1.N) : blkWn1 V c t = arrWn1 V c := by
  obtain ⟨-, -, -, -, -, -, -, -, e0, e1, -⟩ := idx_facts1 t
  funext y
  show V c main_arg7 (((cfg1.win 4).blk t).view.emb y) = V c main_arg7 y
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

theorem blkB1_eq (c : Dev nD) (t : Fin cfg1.N) : blkB1 V c t = arrB1 V c := by
  obtain ⟨-, -, -, -, -, -, -, -, -, -, e0, e1, -⟩ := idx_facts1 t
  funext y
  show V c main_v40 (((cfg1.win 5).blk t).view.emb y) = V c main_v40 y
  refine congrArg _ (funext fun a => Fin.ext ?_)
  match a with
  | ⟨0, _⟩ => show win1_5.index t (0 : Fin 2) * 1 + 1 * (y 0).val = (y 0).val; omega
  | ⟨1, _⟩ => show win1_5.index t (1 : Fin 2) * 128 + 1 * (y 1).val = (y 1).val; omega

theorem blkWp1_eq (c : Dev nD) (t : Fin cfg1.N) : blkWp1 V c t = arrWp1 V c := by
  obtain ⟨-, -, -, -, -, -, -, -, -, -, -, -, e0, e1, -⟩ := idx_facts1 t
  funext y
  show V c main_v36 (((cfg1.win 6).blk t).view.emb y) = V c main_v36 y
  refine congrArg _ (funext fun a => Fin.ext ?_)
  match a with
  | ⟨0, _⟩ => show win1_6.index t (0 : Fin 2) * 128 + 1 * (y 0).val = (y 0).val; omega
  | ⟨1, _⟩ => show win1_6.index t (1 : Fin 2) * 128 + 1 * (y 1).val = (y 1).val; omega

theorem blkBp1_eq (c : Dev nD) (t : Fin cfg1.N) : blkBp1 V c t = arrBp1 V c := by
  obtain ⟨-, -, -, -, -, -, -, -, -, -, -, -, -, -, e0, e1, -⟩ := idx_facts1 t
  funext y
  show V c main_v41 (((cfg1.win 7).blk t).view.emb y) = V c main_v41 y
  refine congrArg _ (funext fun a => Fin.ext ?_)
  match a with
  | ⟨0, _⟩ => show win1_7.index t (0 : Fin 2) * 1 + 1 * (y 0).val = (y 0).val; omega
  | ⟨1, _⟩ => show win1_7.index t (1 : Fin 2) * 128 + 1 * (y 1).val = (y 1).val; omega

/-- WHAT TILE `t` WRITES BACK is its rows of the padded head of the layer of the whole arrays. -/
theorem flushed1_eq (c : Dev nD) (t : Fin cfg1.N) :
    (dat1 V c).flushed 8 t = ((cfg1.win 8).blk t).view.read (Elt Ideal) (layer1 V c) := by
  show (cfg1.win 8).cut (grid1.coords t) ((dat1 V c).after 8 t) = _
  rw [after1_8]
  unfold out1_8
  rw [View.canon_unit_zero hz]
  simp only [View.ld_unit_zero (S := S5000x128) hz, View.ld_unit_zero (S := S5000x1) hz,
    View.ld_unit_zero (S := S128x128) hz, View.ld_unit_zero (S := S1x128) hz]
  rw [pay1_eq (blkX1 V c t) (blkA1 V c t) (blkR1 V c t) (blkWs1 V c t) (blkWn1 V c t) (blkB1 V c t) (blkWp1 V c t) (blkBp1 V c t),
    blkWs1_eq, blkWn1_eq, blkB1_eq, blkWp1_eq, blkBp1_eq]
  obtain ⟨e00, e01, e10, e11, e20, e21, -, -, -, -, -, -, -, -, -, -, e80, e81⟩ := idx_facts1 t
  funext y
  show head (sageLayer (blkX1 V c t) (nbrScaled (blkA1 V c t) (blkR1 V c t)) (arrWs1 V c) (arrWn1 V c) (arrB1 V c) zeroWord)
      (arrWp1 V c) (arrBp1 V c) y
    = head (sageLayer (arrX1 V c) (nbrScaled (arrA1 V c) (arrR1 V c)) (arrWs1 V c) (arrWn1 V c) (arrB1 V c) zeroWord)
      (arrWp1 V c) (arrBp1 V c) (((cfg1.win 8).blk t).view.emb y)
  refine headLayer_rows (arrX1 V c) (arrA1 V c) (arrR1 V c) (blkX1 V c t) (blkA1 V c t) (blkR1 V c t) (arrWs1 V c) (arrWn1 V c)
    (arrB1 V c) zeroWord (arrWp1 V c) (arrBp1 V c) y (((cfg1.win 8).blk t).view.emb y) ?_ ?_ ?_ ?_
  · apply Fin.ext
    show (y 1).val = win1_8.index t (1 : Fin 2) * 128 + 1 * (y 1).val
    omega
  · intro k
    show V c main_v22 (((cfg1.win 0).blk t).view.emb (ix2 (y 0) k)) = V c main_v22 (ix2 ((((cfg1.win 8).blk t).view.emb y) 0) k)
    refine congrArg _ (funext fun a => Fin.ext ?_)
    match a with
    | ⟨0, _⟩ => show win1_0.index t (0 : Fin 2) * 5000 + 1 * (y 0).val = win1_8.index t (0 : Fin 2) * 5000 + 1 * (y 0).val; omega
    | ⟨1, _⟩ => show win1_0.index t (1 : Fin 2) * 128 + 1 * k.val = k.val; omega
  · intro k
    show V c main_v33 (((cfg1.win 1).blk t).view.emb (ix2 (y 0) k)) = V c main_v33 (ix2 ((((cfg1.win 8).blk t).view.emb y) 0) k)
    refine congrArg _ (funext fun a => Fin.ext ?_)
    match a with
    | ⟨0, _⟩ => show win1_1.index t (0 : Fin 2) * 5000 + 1 * (y 0).val = win1_8.index t (0 : Fin 2) * 5000 + 1 * (y 0).val; omega
    | ⟨1, _⟩ => show win1_1.index t (1 : Fin 2) * 128 + 1 * k.val = k.val; omega
  · show V c main_v8 (((cfg1.win 2).blk t).view.emb (ix2 (y 0) (0 : Fin 1))) = V c main_v8 (ix2 ((((cfg1.win 8).blk t).view.emb y) 0) (0 : Fin 1))
    refine congrArg _ (funext fun a => Fin.ext ?_)
    match a with
    | ⟨0, _⟩ => show win1_2.index t (0 : Fin 2) * 5000 + 1 * (y 0).val = win1_8.index t (0 : Fin 2) * 5000 + 1 * (y 0).val; omega
    | ⟨1, _⟩ => show win1_2.index t (1 : Fin 2) * 1 + 1 * 0 = 0; omega

/-- An index of the array is in tile `t`'s block iff each coordinate is in the block's range on its axis. -/
theorem mem_blk1 (t : Fin cfg1.N) (i : S50000x128.Idx) :
    i ∈ ((cfg1.win 8).blk t).view.set ↔ ∀ a : Fin 2, win1_8.index t a * S5000x128.size a ≤ (i a).val ∧ (i a).val < win1_8.index t a * S5000x128.size a + S5000x128.size a := by
  show i ∈ ((View.whole main_v42).slice (win1_8.rect t)).set ↔ _
  rw [View.set_slice_whole, Rect.mem_set_unit]
  exact Iff.rfl

/-- Every row lies in the tile of its quotient by 5000. -/
theorem cover1 (i : S50000x128.Idx) : ∃ t : Fin cfg1.N, (cfg1.win 8).flush t = true ∧ i ∈ ((cfg1.win 8).blk t).view.set := by
  have hi0 : (i 0).val < 50000 := (i 0).isLt
  have hi1 : (i 1).val < 128 := (i 1).isLt
  refine ⟨⟨(i 0).val / 5000, by show (i 0).val / 5000 < 10; omega⟩, flush1_8 _, ?_⟩
  rw [mem_blk1]
  obtain ⟨-, -, -, -, -, -, -, -, -, -, -, -, -, -, -, -, e80, e81⟩ := idx_facts1 ⟨(i 0).val / 5000, by show (i 0).val / 5000 < 10; omega⟩
  intro a
  match a with
  | ⟨0, _⟩ =>
    show win1_8.index _ (0 : Fin 2) * 5000 ≤ (i 0).val ∧ (i 0).val < win1_8.index _ (0 : Fin 2) * 5000 + 5000
    rw [e80]
    show (i 0).val / 5000 * 5000 ≤ (i 0).val ∧ (i 0).val < (i 0).val / 5000 * 5000 + 5000
    omega
  | ⟨1, _⟩ =>
    show win1_8.index _ (1 : Fin 2) * 128 ≤ (i 1).val ∧ (i 1).val < win1_8.index _ (1 : Fin 2) * 128 + 128
    rw [e81]
    omega

/-- THE ARRAY after region 1: the padded head of the layer of the arrays the region reads. -/
theorem final1 (c : Dev nD) : (dat1 V c).arrAt 8 cfg1.N = layer1 V c :=
  (dat1 V c).arrAt_eq_of_cover 8 (layer1 V c) (fun t _ => flushed1_eq V c t) cover1

end Cert.KernelIdeal.Blocks

end
-- ==== Proof.LibScatterSet.lean ====
/-
  An overwriting scatter read at an index.

  The host's `scatter` whose body returns the update walks the update indices in row-major order; an update whose
  target lies inside the operand replaces the element there, one whose target lies outside is dropped. Read at an
  element `i` of the operand: when exactly one update index `j` is sent to `i`, the result holds that update's
  element (no later step touches `i` again, every earlier one is overwritten); when none is, it holds the operand's
  own element. A target is inside the operand exactly when every coordinate of "start plus window coordinate" is in
  range, and then it is that sum coordinate by coordinate.
-/
import Idealize.ShloMosaic.PureOps.ShapeOps
import Idealize.ShloMosaic.PureOps.Dims

noncomputable section

namespace Cert.Lib

open Idealize.ShloMosaic

variable {α : Type} {s si u : Shape} {w : Nat}

/-- One step of the overwriting scatter: update number `n` written at its target, or dropped. -/
def setStep (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

/-- The overwriting scatter is the fold of its steps over the update numbers in order. -/
theorem scatter_set_eq_foldl (d : ScatterDims s si u) (x : s.Idx → α) (idx : IVec si w) (upd : u.Idx → α) :
    Host.scatter d (fun _ b => b) x idx upd = (List.finRange u.numel).foldl (setStep d idx upd) x := rfl

theorem setStep_some (d : ScatterDims s si u) (idx : IVec si w) (upd : u.Idx → α) (r : s.Idx → α) (n : Fin u.numel)
    (i i' : s.Idx) (h : d.resultIdx? (u.rowMajor.symm n) idx = some i) :
    setStep d idx upd r n i' = if i' = i then upd (u.rowMajor.symm n) else r i' := by
  unfold setStep; rw [h]

theorem setStep_none (d : ScatterDims s si u) (idx : IVec si w) (upd : u.Idx → α) (r : s.Idx → α) (n : Fin u.numel)
    (h : d.resultIdx? (u.rowMajor.symm n) idx = none) : setStep d idx upd r n = r := by
  unfold setStep; rw [h]

/-- Steps none of which targets `i` leave the element at `i` alone. -/
theorem foldl_setStep_of_not_hit (d : ScatterDims s si u) (idx : IVec si w) (upd : u.Idx → α) (i : s.Idx) :
    ∀ (l : List (Fin u.numel)) (r : s.Idx → α), (∀ n ∈ l, d.resultIdx? (u.rowMajor.symm n) idx ≠ some i) →
      l.foldl (setStep d idx upd) r i = r i
  | [], _, _ => rfl
  | a :: t, r, h => by
    rw [List.foldl_cons, foldl_setStep_of_not_hit d idx upd i t _ fun n hn => h n (List.mem_cons_of_mem _ hn)]
    have ha := h a List.mem_cons_self
    cases hta : d.resultIdx? (u.rowMajor.symm a) idx with
    | none => rw [setStep_none d idx upd r a hta]
    | some i0 =>
      rw [setStep_some d idx upd r a i0 i hta, if_neg]
      intro e; exact ha (by rw [hta, e])

/-- Among steps without repeats of which exactly `n0` targets `i`, the element at `i` ends as update `n0`'s. -/
theorem foldl_setStep_of_hit (d : ScatterDims s si u) (idx : IVec si w) (upd : u.Idx → α) (i : s.Idx) (n0 : Fin u.numel)
    (h0 : d.resultIdx? (u.rowMajor.symm n0) idx = some i) :
    ∀ (l : List (Fin u.numel)) (r : s.Idx → α), l.Nodup → n0 ∈ l →
      (∀ n ∈ l, d.resultIdx? (u.rowMajor.symm n) idx = some i → n = n0) →
      l.foldl (setStep d idx upd) r i = upd (u.rowMajor.symm n0)
  | [], _, _, hm, _ => absurd hm (List.not_mem_nil)
  | a :: t, r, hnd, hm, huniq => by
    rw [List.foldl_cons]
    by_cases ha : a = n0
    · subst ha
      have hnt : a ∉ t := (List.nodup_cons.mp hnd).1
      rw [foldl_setStep_of_not_hit d idx upd i t _ fun n hn hn' =>
        hnt (huniq n (List.mem_cons_of_mem _ hn) hn' ▸ hn)]
      rw [setStep_some d idx upd r a i i h0, if_pos rfl]
    · have hmt : n0 ∈ t := by
        rcases List.mem_cons.mp hm with e | e
        · exact absurd e.symm ha
        · exact e
      exact foldl_setStep_of_hit d idx upd i n0 h0 t _ (List.nodup_cons.mp hnd).2 hmt
        fun n hn => huniq n (List.mem_cons_of_mem _ hn)

/-- The overwriting scatter at an element exactly one update index `j` is sent to: that update's element. -/
theorem scatter_set_apply_of_unique (d : ScatterDims s si u) (x : s.Idx → α) (idx : IVec si w) (upd : u.Idx → α)
    (j : u.Idx) (i : s.Idx) (hj : d.resultIdx? j idx = some i) (huniq : ∀ j', d.resultIdx? j' idx = some i → j' = j) :
    Host.scatter d (fun _ b => b) x idx upd i = upd j := by
  rw [scatter_set_eq_foldl]
  have h0 : d.resultIdx? (u.rowMajor.symm (u.rowMajor j)) idx = some i := by rw [Equiv.symm_apply_apply]; exact hj
  rw [foldl_setStep_of_hit d idx upd i (u.rowMajor j) h0 _ x (List.nodup_finRange _) (List.mem_finRange _)
    fun n _ hn => by rw [← huniq _ hn, Equiv.apply_symm_apply]]
  rw [Equiv.symm_apply_apply]

/-- The overwriting scatter at an element no update index is sent to: the operand's own element. -/
theorem scatter_set_apply_of_none (d : ScatterDims s si u) (x : s.Idx → α) (idx : IVec si w) (upd : u.Idx → α)
    (i : s.Idx) (h : ∀ j, d.resultIdx? j idx ≠ some i) :
    Host.scatter d (fun _ b => b) x idx upd i = x i := by
  rw [scatter_set_eq_foldl]
  exact foldl_setStep_of_not_hit d idx upd i _ x fun n _ => h _

/-- An update's target is `i` exactly when, on every axis, `i`'s coordinate is the start plus the window coordinate. -/
theorem resultIdx?_eq_some_iff (d : ScatterDims s si u) (idx : IVec si w) (j : u.Idx) (i : s.Idx) :
    d.resultIdx? j idx = some i ↔ ∀ a, d.start j idx a + (d.window j a : Int) = ((i a).val : Int) := by
  unfold ScatterDims.resultIdx?
  split
  · rename_i h
    constructor
    · intro e a
      have e' := Option.some.inj e
      have := congrArg (fun f => (f a).val) e'
      simp only at this
      have h1 := (h a).1
      omega
    · intro e
      congr 1
      funext a
      apply Fin.ext
      have := e a
      have h1 := (h a).1
      show (d.start j idx a + (d.window j a : Int)).toNat = (i a).val
      omega
  · rename_i h
    constructor
    · intro e; exact absurd e (by simp)
    · intro e
      exfalso
      apply h
      intro a
      have := e a
      have hi := (i a).isLt
      constructor <;> omega

end Cert.Lib

end
-- ==== Proof.Pad.lean ====
/-
  Padding by one overwriting scatter, read below the unpadded width.

  The weight matrix [128,47] is written into a zero [128,128] matrix, and the bias [47] into a zero [128] vector, each by
  a single scatter that keeps the update and whose one start index is the constant 0. For such a scatter the window of
  update element j starts at 0 on every operand axis (the start index reads 0 on the axis it names, and is 0 by
  definition on an axis it does not name), and the window coordinate on each axis is j's own coordinate there, because
  no operand axis is inserted and the window axes are all the update's axes in order. So update element (k, j) lands on
  operand element (k, j); two updates landing on one element agree on every coordinate, hence are the same update.
  An overwriting scatter read at an element exactly one update lands on holds that update, which gives: the padded
  matrix at (k, j), j < 47, is the matrix's entry (k, j), and the padded vector at j < 47 is the vector's entry j.
-/
import proofs.«414205_j87892210745360_3_alg».proof.Proof.Gen.KernelIdeal
import proofs.«414205_j87892210745360_3_alg».proof.Proof.LibScatterSet
import Idealize.ShloMosaic.Lib.ValueIdx
import Idealize.ShloMosaic.Lib.Pipeline.Value

noncomputable section
namespace Cert.KernelIdeal.Pad
open Idealize.ShloMosaic Idealize.ShloMosaic.ValueIdx Cert.KernelIdeal Cert.KernelIdeal.Facts₀ Cert.Lib

/-- A scatter all of whose start index entries are the 32-bit zero starts every window at 0 on every axis. -/
theorem start_zero {s si u : Shape} (d : ScatterDims s si u) (idx : IVec si 32) (hidx : ∀ k, idx k = 0#32) (j : u.Idx)
    (a : Fin s.rank) : d.start j idx a = 0 := by
  unfold ScatterDims.start
  split
  · rw [hidx]; rfl
  · rfl

/-- The matrix scatter's window coordinate on the row axis is the update's row. -/
theorem wwin_row (j : S128x47.Idx) :
    scatter_S128x128_S1_S128x47_01_n_1_0.window j ⟨0, by decide⟩ = (j ⟨0, by decide⟩).val := rfl
/-- The matrix scatter's window coordinate on the column axis is the update's column. -/
theorem wwin_col (j : S128x47.Idx) :
    scatter_S128x128_S1_S128x47_01_n_1_0.window j ⟨1, by decide⟩ = (j ⟨1, by decide⟩).val := rfl
/-- The vector scatter's window coordinate on its one axis is the update's entry number. -/
theorem bwin (j : S47.Idx) : scatter_S128_S1_S47_0_n_0_0.window j ⟨0, by decide⟩ = (j ⟨0, by decide⟩).val := rfl

/-- The single start index the program builds: a broadcast zero. -/
theorem zero_idx (k : S1.Idx) : broadcastInDim S1 ![] bcast_S_S1 (constantI S_ 32 0#32) k = 0#32 := rfl

/-- With a zero start index, matrix update element `j` lands on operand element `i` exactly when their rows agree and
    their columns agree. -/
theorem wtarget_iff (idx : IVec S1 32) (hidx : ∀ k, idx k = 0#32) (j : S128x47.Idx) (i : S128x128.Idx) :
    scatter_S128x128_S1_S128x47_01_n_1_0.resultIdx? j idx = some i ↔
      (j ⟨0, by decide⟩).val = (i ⟨0, by decide⟩).val ∧ (j ⟨1, by decide⟩).val = (i ⟨1, by decide⟩).val := by
  rw [resultIdx?_eq_some_iff]
  constructor
  · intro h
    have h0 := h ⟨0, by decide⟩
    have h1 := h ⟨1, by decide⟩
    rw [start_zero _ idx hidx, wwin_row] at h0
    rw [start_zero _ idx hidx, wwin_col] at h1
    constructor <;> omega
  · rintro ⟨h0, h1⟩ a
    rw [start_zero _ idx hidx]
    match a with
    | ⟨0, _⟩ => rw [wwin_row]; omega
    | ⟨1, _⟩ => rw [wwin_col]; omega

/-- With a zero start index, vector update element `j` lands on operand element `i` exactly when their entry numbers
    agree. -/
theorem btarget_iff (idx : IVec S1 32) (hidx : ∀ k, idx k = 0#32) (j : S47.Idx) (i : S128.Idx) :
    scatter_S128_S1_S47_0_n_0_0.resultIdx? j idx = some i ↔ (j ⟨0, by decide⟩).val = (i ⟨0, by decide⟩).val := by
  rw [resultIdx?_eq_some_iff]
  constructor
  · intro h
    have h0 := h ⟨0, by decide⟩
    rw [start_zero _ idx hidx, bwin] at h0
    omega
  · intro h0 a
    rw [start_zero _ idx hidx]
    match a with
    | ⟨0, _⟩ => rw [bwin]; omega

/-- The padded weights in the columns below 47 are the weights. -/
theorem wpad_apply {α : Type} (x : S128x128.Idx → α) (idx : IVec S1 32) (hidx : ∀ k, idx k = 0#32) (W : S128x47.Idx → α)
    (k : Fin 128) (j : Fin 47) :
    Host.scatter scatter_S128x128_S1_S128x47_01_n_1_0 (fun _ b => b) x idx W (ix2 k (Fin.castLE (by decide : 47 ≤ 128) j)) = W (ix2 k j) := by
  apply scatter_set_apply_of_unique
  · rw [wtarget_iff idx hidx]
    exact ⟨rfl, rfl⟩
  · intro j' h
    rw [wtarget_iff idx hidx] at h
    funext a
    match a with
    | ⟨0, _⟩ => exact Fin.ext h.1
    | ⟨1, _⟩ => exact Fin.ext h.2

/-- The padded bias in the entries below 47 is the bias. -/
theorem bpad_apply {α : Type} (x : S128.Idx → α) (idx : IVec S1 32) (hidx : ∀ k, idx k = 0#32) (b : S47.Idx → α) (j : Fin 47) :
    Host.scatter scatter_S128_S1_S47_0_n_0_0 (fun _ b => b) x idx b (ix1 (Fin.castLE (by decide : 47 ≤ 128) j)) = b (ix1 j) := by
  apply scatter_set_apply_of_unique
  · rw [btarget_iff idx hidx]
    rfl
  · intro j' h
    rw [btarget_iff idx hidx] at h
    funext a
    match a with
    | ⟨0, _⟩ => exact Fin.ext h

end Cert.KernelIdeal.Pad
end
-- ==== Proof.Graph.lean ====
/-
  The graph's aggregation, named once.

  Both programs read the edge lists the same way: a source index below zero is moved up by the number of nodes, the
  source nodes' rows are gathered along the edges, and the gathered rows are added into their destination nodes' rows
  of an array of zeros (`aggOf`); the in-degree adds a one per edge into its destination node's entry of a vector of
  zeros (`degOf`). Nothing here opens the gather or the scatter-add: the two programs apply the same chain, and the
  certificate only ever needs that equal feature arrays give equal aggregates.
-/
import proofs.«414205_j87892210745360_3_alg».proof.Proof.Gen.ReferenceIdeal
import proofs.«414205_j87892210745360_3_alg».proof.Proof.Spec

noncomputable section

namespace Cert.Sage

open Idealize.ShloMosaic Idealize.ShloMosaic.ValueIdx Cert.ReferenceIdeal Cert.ReferenceIdeal.Facts₀

/-- The edges' source indices as the gather takes them: a negative index moved up by the number of nodes, as a column. -/
def srcIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 50000#32))) src)

/-- For every node, the sum over its incoming edges of the source node's row of `X`. -/
def aggOf (src dst : IVec S1600000 32) (X : Arr 50000 128) : Arr 50000 128 :=
  Host.scatterAdd (F := Ideal) (φ := .f32) scatter_S50000x128_S1600000x1_S1600000x128_1_0_0_1
    (broadcastInDim S50000x128 ![] bcast_S_S50000x128 (constant (F := Ideal) S_ .f32 0x00000000#32))
    (broadcastInDim S1600000x1 ![0] bcast_S1600000_S1600000x1_0 dst)
    (Host.gather gather_S50000x128_S1600000x1_S1600000x128_1_0_n_n_0_1_1128 X (srcIdx src))

/-- For every node, the number of its incoming edges, as a sum of ones. -/
def degOf (dst : IVec S1600000 32) : Vec1 50000 :=
  Host.scatterAdd (F := Ideal) (φ := .f32) scatter_S50000_S1600000x1_S1600000_n_0_0_1
    (broadcastInDim S50000 ![] bcast_S_S50000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))

/-- A length-128 vector is a one-row array of the same entries. -/
theorem casts_128 : (⟨1, ![128]⟩ : Shape).ShapeCasts ⟨2, ![1, 128]⟩ := by decide
/-- A length-47 vector is a one-row array of the same entries. -/
theorem casts_47 : (⟨1, ![47]⟩ : Shape).ShapeCasts ⟨2, ![1, 47]⟩ := by decide

/-- The class scores as one function of the eleven arguments: the features, the two edge lists, each layer's two weight
    matrices and bias, the head's weights and bias. The aggregate and the degree are the graph's (`aggOf`, `degOf`),
    each bias a one-row array, the positive part taken against the zero word. -/
def G (X : Arr 50000 128) (src dst : IVec S1600000 32) (Ws0 Wn0 : Arr 128 128) (b0 : Vec1 128)
    (Ws1 Wn1 : Arr 128 128) (b1 : Vec1 128) (Wf : Arr 128 47) (bf : Vec1 47) : Arr 50000 47 :=
  net (aggOf src dst) (degOf dst) X Ws0 Wn0 (shapeCast ⟨2, ![1, 128]⟩ b0 casts_128)
    Ws1 Wn1 (shapeCast ⟨2, ![1, 128]⟩ b1 casts_128) Wf (shapeCast ⟨2, ![1, 47]⟩ bf casts_47) (Ideal.ofBits .f32 0x00000000#32)

end Cert.Sage

end
-- ==== Proof.KValue.lean ====
/-
  The kernel program's result as the network's scores of its arguments.

  The program's memory is followed through its five stretches. Before the first kernel the host computes the
  aggregate of the features and the column of reciprocals of the capped degrees; the first kernel leaves the hidden
  features, one layer with the average in its product spelling, which is the quotient spelling
  (`nbrScaled_recipCol`). Between the kernels the host aggregates the hidden features over the same edge lists and
  pads the head's weights and bias with zeros; the second kernel leaves the padded head of the second layer. The last
  stretch keeps the first 47 columns, and in those the padded head is the head itself (`head_castLE`): the padded
  weights and bias hold the weights and the bias there.
-/
import proofs.«414205_j87892210745360_3_alg».proof.Proof.KBlocks1
import proofs.«414205_j87892210745360_3_alg».proof.Proof.Pad
import proofs.«414205_j87892210745360_3_alg».proof.Proof.Graph
import Idealize.ShloMosaic.Lib.StableHlo.Run

set_option maxRecDepth 16384

noncomputable section

namespace Cert.KernelIdeal.KValue

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.Blocks Cert.KernelIdeal.Body Cert.KernelIdeal.Pad
open Cert.Lib Cert.Rows Cert.Sage

variable (m : (ℓ : Loc nD τ sig) → Buf (Elt Ideal) ℓ) (ρ : Dev nD → PrngReg)

/-! ## The arguments, named -/

abbrev aX (c : Dev nD) : Arr 50000 128 := m ((c : Thread nD τ).loc main_arg0)
abbrev aSrc (c : Dev nD) : IVec S1600000 32 := m ((c : Thread nD τ).loc main_arg1)
abbrev aDst (c : Dev nD) : IVec S1600000 32 := m ((c : Thread nD τ).loc main_arg2)
abbrev aWs0 (c : Dev nD) : Arr 128 128 := m ((c : Thread nD τ).loc main_arg3)
abbrev aWn0 (c : Dev nD) : Arr 128 128 := m ((c : Thread nD τ).loc main_arg4)
abbrev aB0 (c : Dev nD) : Vec1 128 := m ((c : Thread nD τ).loc main_arg5)
abbrev aWs1 (c : Dev nD) : Arr 128 128 := m ((c : Thread nD τ).loc main_arg6)
abbrev aWn1 (c : Dev nD) : Arr 128 128 := m ((c : Thread nD τ).loc main_arg7)
abbrev aB1 (c : Dev nD) : Vec1 128 := m ((c : Thread nD τ).loc main_arg8)
abbrev aWf (c : Dev nD) : Arr 128 47 := m ((c : Thread nD τ).loc main_arg9)
abbrev aBf (c : Dev nD) : Vec1 47 := m ((c : Thread nD τ).loc main_arg10)

/-- The hidden features after the first layer, of the arguments. -/
abbrev hid1 (c : Dev nD) : Arr 50000 128 :=
  hidden1 (aggOf (aSrc m c) (aDst m c)) (degOf (aDst m c)) (aX m c) (aWs0 m c) (aWn0 m c)
    (shapeCast ⟨2, ![1, 128]⟩ (aB0 m c) casts_128) zeroWord

/-! ## Before the first kernel -/

theorem W1_arg0 (c : Dev nD) : W1 m ρ c (Proc.devRef .tc main_arg0) = aX m c := by
  show StableHlo.after hostOps0 (W0 m ρ c) (Proc.devRef .tc main_arg0) = _
  after_results_simp <;> rfl
theorem W1_arg1 (c : Dev nD) : W1 m ρ c (Proc.devRef .tc main_arg1) = aSrc m c := by
  show StableHlo.after hostOps0 (W0 m ρ c) (Proc.devRef .tc main_arg1) = _
  after_results_simp <;> rfl
theorem W1_arg2 (c : Dev nD) : W1 m ρ c (Proc.devRef .tc main_arg2) = aDst m c := by
  show StableHlo.after hostOps0 (W0 m ρ c) (Proc.devRef .tc main_arg2) = _
  after_results_simp <;> rfl
theorem W1_arg3 (c : Dev nD) : W1 m ρ c (Proc.devRef .tc main_arg3) = aWs0 m c := by
  show StableHlo.after hostOps0 (W0 m ρ c) (Proc.devRef .tc main_arg3) = _
  after_results_simp <;> rfl
theorem W1_arg4 (c : Dev nD) : W1 m ρ c (Proc.devRef .tc main_arg4) = aWn0 m c := by
  show StableHlo.after hostOps0 (W0 m ρ c) (Proc.devRef .tc main_arg4) = _
  after_results_simp <;> rfl
theorem W1_arg6 (c : Dev nD) : W1 m ρ c (Proc.devRef .tc main_arg6) = aWs1 m c := by
  show StableHlo.after hostOps0 (W0 m ρ c) (Proc.devRef .tc main_arg6) = _
  after_results_simp <;> rfl
theorem W1_arg7 (c : Dev nD) : W1 m ρ c (Proc.devRef .tc main_arg7) = aWn1 m c := by
  show StableHlo.after hostOps0 (W0 m ρ c) (Proc.devRef .tc main_arg7) = _
  after_results_simp <;> rfl
theorem W1_arg8 (c : Dev nD) : W1 m ρ c (Proc.devRef .tc main_arg8) = aB1 m c := by
  show StableHlo.after hostOps0 (W0 m ρ c) (Proc.devRef .tc main_arg8) = _
  after_results_simp <;> rfl
theorem W1_arg9 (c : Dev nD) : W1 m ρ c (Proc.devRef .tc main_arg9) = aWf m c := by
  show StableHlo.after hostOps0 (W0 m ρ c) (Proc.devRef .tc main_arg9) = _
  after_results_simp <;> rfl
theorem W1_arg10 (c : Dev nD) : W1 m ρ c (Proc.devRef .tc main_arg10) = aBf m c := by
  show StableHlo.after hostOps0 (W0 m ρ c) (Proc.devRef .tc main_arg10) = _
  after_results_simp <;> rfl

/-- The aggregate of the features, as the first kernel finds it. -/
theorem W1_agg (c : Dev nD) : W1 m ρ c (Proc.devRef .tc main_v20) = aggOf (aSrc m c) (aDst m c) (aX m c) := by
  show StableHlo.after hostOps0 (W0 m ρ c) (Proc.devRef .tc main_v20) = _
  after_results_simp
  rfl

/-- The column of reciprocals of the capped degrees, as both kernels find it. -/
theorem W1_recip (c : Dev nD) : W1 m ρ c (Proc.devRef .tc main_v8) = recipCol (degOf (aDst m c)) := by
  show StableHlo.after hostOps0 (W0 m ρ c) (Proc.devRef .tc main_v8) = _
  after_results_simp
  exact host_recipCol_eq (degOf (aDst m c)) _ _

/-- The first layer's bias as a one-row array. -/
theorem W1_bias (c : Dev nD) : W1 m ρ c (Proc.devRef .tc main_v21) = shapeCast ⟨2, ![1, 128]⟩ (aB0 m c) casts_128 := by
  show StableHlo.after hostOps0 (W0 m ρ c) (Proc.devRef .tc main_v21) = _
  after_results_simp
  rfl

/-- The first kernel leaves the hidden features. -/
theorem layer0_eq (c : Dev nD) : layer0 (V1 m ρ) c = hid1 m c := by
  show sageLayer (W1 m ρ c (Proc.devRef .tc main_arg0))
      (nbrScaled (W1 m ρ c (Proc.devRef .tc main_v20)) (W1 m ρ c (Proc.devRef .tc main_v8)))
      (W1 m ρ c (Proc.devRef .tc main_arg3)) (W1 m ρ c (Proc.devRef .tc main_arg4)) (W1 m ρ c (Proc.devRef .tc main_v21)) zeroWord = _
  rw [W1_arg0, W1_agg, W1_recip, W1_arg3, W1_arg4, W1_bias, nbrScaled_recipCol]
  rfl

/-! ## Between the kernels -/

/-- A buffer that is none of the first kernel's arrays keeps its contents across it. -/
theorem W2_arg1 (c : Dev nD) : W2 m ρ c (Proc.devRef .tc main_arg1) = aSrc m c :=
  (W2_of_ne m ρ c main_arg1 (by decide)).trans (W1_arg1 m ρ c)
theorem W2_arg2 (c : Dev nD) : W2 m ρ c (Proc.devRef .tc main_arg2) = aDst m c :=
  (W2_of_ne m ρ c main_arg2 (by decide)).trans (W1_arg2 m ρ c)
theorem W2_arg6 (c : Dev nD) : W2 m ρ c (Proc.devRef .tc main_arg6) = aWs1 m c :=
  (W2_of_ne m ρ c main_arg6 (by decide)).trans (W1_arg6 m ρ c)
theorem W2_arg7 (c : Dev nD) : W2 m ρ c (Proc.devRef .tc main_arg7) = aWn1 m c :=
  (W2_of_ne m ρ c main_arg7 (by decide)).trans (W1_arg7 m ρ c)
theorem W2_arg8 (c : Dev nD) : W2 m ρ c (Proc.devRef .tc main_arg8) = aB1 m c :=
  (W2_of_ne m ρ c main_arg8 (by decide)).trans (W1_arg8 m ρ c)
theorem W2_arg9 (c : Dev nD) : W2 m ρ c (Proc.devRef .tc main_arg9) = aWf m c :=
  (W2_of_ne m ρ c main_arg9 (by decide)).trans (W1_arg9 m ρ c)
theorem W2_arg10 (c : Dev nD) : W2 m ρ c (Proc.devRef .tc main_arg10) = aBf m c :=
  (W2_of_ne m ρ c main_arg10 (by decide)).trans (W1_arg10 m ρ c)

/-- The reciprocal column is an input of the first kernel: it comes out as it went in. -/
theorem W2_recip (c : Dev nD) : W2 m ρ c (Proc.devRef .tc main_v8) = recipCol (degOf (aDst m c)) :=
  (W2_arr m ρ c 2).trans ((((dat0 (V1 m ρ) c).arrAt_in 2 rfl _).trans (A_eq0 (V1 m ρ) c 2)).trans (W1_recip m ρ c))

/-- The first kernel's output array holds the hidden features. -/
theorem W2_hid (c : Dev nD) : W2 m ρ c (Proc.devRef .tc main_v22) = hid1 m c :=
  (W2_arr m ρ c 6).trans ((final0 (V1 m ρ) c).trans (layer0_eq m ρ c))

theorem W3_hid (c : Dev nD) : W3 m ρ c (Proc.devRef .tc main_v22) = hid1 m c := by
  show StableHlo.after hostOps1 (W2 m ρ c) (Proc.devRef .tc main_v22) = _
  after_results_simp
  exact W2_hid m ρ c

/-- The aggregate of the hidden features, over the same edge lists. -/
theorem W3_agg (c : Dev nD) : W3 m ρ c (Proc.devRef .tc main_v33) = aggOf (aSrc m c) (aDst m c) (hid1 m c) := by
  show StableHlo.after hostOps1 (W2 m ρ c) (Proc.devRef .tc main_v33) = _
  after_results_simp
  rw [W2_arg1, W2_arg2, W2_hid]
  rfl

theorem W3_recip (c : Dev nD) : W3 m ρ c (Proc.devRef .tc main_v8) = recipCol (degOf (aDst m c)) := by
  show StableHlo.after hostOps1 (W2 m ρ c) (Proc.devRef .tc main_v8) = _
  after_results_simp
  exact W2_recip m ρ c

theorem W3_arg6 (c : Dev nD) : W3 m ρ c (Proc.devRef .tc main_arg6) = aWs1 m c := by
  show StableHlo.after hostOps1 (W2 m ρ c) (Proc.devRef .tc main_arg6) = _
  after_results_simp
  exact W2_arg6 m ρ c

theorem W3_arg7 (c : Dev nD) : W3 m ρ c (Proc.devRef .tc main_arg7) = aWn1 m c := by
  show StableHlo.after hostOps1 (W2 m ρ c) (Proc.devRef .tc main_arg7) = _
  after_results_simp
  exact W2_arg7 m ρ c

/-- The second layer's bias as a one-row array. -/
theorem W3_bias (c : Dev nD) : W3 m ρ c (Proc.devRef .tc main_v40) = shapeCast ⟨2, ![1, 128]⟩ (aB1 m c) casts_128 := by
  show StableHlo.after hostOps1 (W2 m ρ c) (Proc.devRef .tc main_v40) = _
  after_results_simp
  rw [W2_arg8]
  rfl

/-- The head's weights padded with zero columns. -/
def wPad (c : Dev nD) : Arr 128 128 :=
  Host.scatter scatter_S128x128_S1_S128x47_01_n_1_0 (fun _ b => b)
    (broadcastInDim S128x128 ![] Facts₀.bcast_S_S128x128 (constant (F := Ideal) S_ .f32 0x00000000#32))
    (broadcastInDim S1 ![] Facts₀.bcast_S_S1 (constantI S_ 32 0#32)) (aWf m c)

/-- The head's bias padded with zero entries. -/
def bPad (c : Dev nD) : Vec1 128 :=
  Host.scatter scatter_S128_S1_S47_0_n_0_0 (fun _ b => b)
    (broadcastInDim S128 ![] Facts₀.bcast_S_S128 (constant (F := Ideal) S_ .f32 0x00000000#32))
    (broadcastInDim S1 ![] Facts₀.bcast_S_S1 (constantI S_ 32 0#32)) (aBf m c)

theorem W3_wpad (c : Dev nD) : W3 m ρ c (Proc.devRef .tc main_v36) = wPad m c := by
  show StableHlo.after hostOps1 (W2 m ρ c) (Proc.devRef .tc main_v36) = _
  after_results_simp
  rw [W2_arg9]
  rfl

theorem W3_bpad (c : Dev nD) : W3 m ρ c (Proc.devRef .tc main_v41) = shapeCast ⟨2, ![1, 128]⟩ (bPad m c) casts_128 := by
  show StableHlo.after hostOps1 (W2 m ρ c) (Proc.devRef .tc main_v41) = _
  after_results_simp
  rw [W2_arg10]
  rfl

/-- The second layer's hidden features, of the arguments. -/
abbrev hid2 (c : Dev nD) : Arr 50000 128 :=
  sageLayer (hid1 m c) (nbrMean (aggOf (aSrc m c) (aDst m c) (hid1 m c)) (degOf (aDst m c))) (aWs1 m c) (aWn1 m c)
    (shapeCast ⟨2, ![1, 128]⟩ (aB1 m c) casts_128) zeroWord

/-- The second kernel leaves the padded head of the second layer. -/
theorem layer1_eq (c : Dev nD) :
    layer1 (V3 m ρ) c = head (hid2 m c) (wPad m c) (shapeCast ⟨2, ![1, 128]⟩ (bPad m c) casts_128) := by
  show head (sageLayer (W3 m ρ c (Proc.devRef .tc main_v22))
      (nbrScaled (W3 m ρ c (Proc.devRef .tc main_v33)) (W3 m ρ c (Proc.devRef .tc main_v8)))
      (W3 m ρ c (Proc.devRef .tc main_arg6)) (W3 m ρ c (Proc.devRef .tc main_arg7)) (W3 m ρ c (Proc.devRef .tc main_v40)) zeroWord)
      (W3 m ρ c (Proc.devRef .tc main_v36)) (W3 m ρ c (Proc.devRef .tc main_v41)) = _
  rw [W3_hid, W3_agg, W3_recip, W3_arg6, W3_arg7, W3_bias, W3_wpad, W3_bpad, nbrScaled_recipCol]

/-! ## After the second kernel -/

/-- The result buffer: the first 47 columns of the second kernel's output array. -/
theorem W5_result (c : Dev nD) : W5 m ρ c (Proc.devRef .tc main_v43)
    = extractStridedSlice S50000x47 ![0, 0]
        (head (hid2 m c) (wPad m c) (shapeCast ⟨2, ![1, 128]⟩ (bPad m c) casts_128)) Facts₀.slices_S50000x128_S50000x47_0_0 := by
  show StableHlo.after hostOps2 (W4 m ρ c) (Proc.devRef .tc main_v43) = _
  after_results_simp
  rw [show W4 m ρ c (Proc.devRef .tc main_v42) = head (hid2 m c) (wPad m c) (shapeCast ⟨2, ![1, 128]⟩ (bPad m c) casts_128) from
    (W4_arr m ρ c 8).trans ((final1 (V3 m ρ) c).trans (layer1_eq m ρ c))]

/-- THE KERNEL PROGRAM'S RESULT is the network's scores of its arguments. -/
theorem result_eq (c : Dev nD) : W5 m ρ c (Proc.devRef .tc main_v43)
    = G (aX m c) (aSrc m c) (aDst m c) (aWs0 m c) (aWn0 m c) (aB0 m c) (aWs1 m c) (aWn1 m c) (aB1 m c) (aWf m c) (aBf m c) := by
  rw [W5_result]
  funext i
  obtain ⟨r, j, rfl⟩ : ∃ (r : Fin 50000) (j : Fin 47), i = ix2 r j := ⟨i 0, i 1, eq_ix2 i⟩
  rw [extractStridedSlice_apply ![0, 0] _ Facts₀.slices_S50000x128_S50000x47_0_0 (ix2 r j)
    (ix2 r (Fin.castLE (by decide : 47 ≤ 128) j)) (fun a => by
      match a with
      | ⟨0, _⟩ => show r.val = 0 + r.val; omega
      | ⟨1, _⟩ => show j.val = 0 + j.val; omega)]
  rw [head_castLE (hid2 m c) (wPad m c) (shapeCast ⟨2, ![1, 128]⟩ (bPad m c) casts_128) (aWf m c)
    (shapeCast ⟨2, ![1, 47]⟩ (aBf m c) casts_47) (by decide : 47 ≤ 128)
    (fun k j => wpad_apply _ _ zero_idx (aWf m c) k j)
    (fun j => by
      rw [rowOfVec_apply, rowOfVec_apply]
      exact bpad_apply _ _ zero_idx (aBf m c) j) r j]
  rfl

end Cert.KernelIdeal.KValue

end
-- ==== Proof.RefValue.lean ====
/-
  The reference's result is the network's scores of its eleven arguments.

  The reference applies, twice, one and the same layer to a feature array, and then a linear head. Its layer is spelt
  with the host's whole-array operations; the specification's layer is spelt with row functions. Four whole-array laws
  join the two spellings, applied from the inside out:

  * the aggregate and the degree are, word for word, the graph's gather / scatter-add chain (the definitions of the
    aggregate and of the in-degree unfold to the reference's own operations, so nothing is rewritten there);
  * the quotient of the aggregate by the degree capped below by one, the degree broadcast to a column and the column
    along the rows, is the row-wise average of the aggregate;
  * a dot-general whose dimension numbers contract axis 1 of the left operand with axis 0 of the right one, with no
    batch axis, is every row of the left operand against the columns of the right one;
  * a bias vector broadcast to a row and the row down the rows, added, and then the maximum with the broadcast zero
    word, is the row-wise bias and positive part, the bias vector viewed as a one-row array; without the maximum it
    is the row-wise bias alone.

  The sum of the two products in a layer is the pointwise sum on the extended reals, which is how the specification's
  layer adds its own rows' product and its averaged rows' product. The head is the product with the score weights plus
  the bias row. The edge lists stay symbolic throughout.
-/
import proofs.«414205_j87892210745360_3_alg».proof.Proof.Gen.ReferenceIdeal.Run
import proofs.«414205_j87892210745360_3_alg».proof.Proof.Graph

noncomputable section
namespace Cert.ReferenceIdeal.RefValue
open Idealize.ShloMosaic Idealize.ShloMosaic.TcCoe Idealize.SL.Sem Idealize.ShloMosaic.ValueIdx Cert.ReferenceIdeal Cert.ReferenceIdeal.Facts₀ Cert.Lib Cert.Rows Cert.Sage

/-- The hidden layers' dimension numbers are the plain ones: the product is every row against the columns. -/
theorem dot_hidden_eq (l : FVec Ideal S50000x128 .f32) (w : FVec Ideal S128x128 .f32) :
    Host.dotGeneral dot_S50000x128_S128x128_S50000x128_1_0_0_1_n_n none l w = projArr l w :=
  host_dot_eq none l w

/-- The head's dimension numbers are the plain ones as well. -/
theorem dot_scores_eq (l : FVec Ideal S50000x128 .f32) (w : FVec Ideal S128x47 .f32) :
    Host.dotGeneral dot_S50000x128_S128x47_S50000x47_1_0_0_1_n_n none l w = projArr l w :=
  host_dot_eq none l w

/-- One layer as the reference spells it: both products, their sum, the bias broadcast twice, the maximum with the
    broadcast zero word; the averaged rows are the aggregate over the degree capped below by one. -/
def refLayer (src dst : IVec S1600000 32) (X : FVec Ideal S50000x128 .f32) (Ws Wn : FVec Ideal S128x128 .f32)
    (b : FVec Ideal S128 .f32) : FVec Ideal S50000x128 .f32 :=
  maximumf (addf (addf (Host.dotGeneral dot_S50000x128_S128x128_S50000x128_1_0_0_1_n_n none X Ws)
      (Host.dotGeneral dot_S50000x128_S128x128_S50000x128_1_0_0_1_n_n none
        (Host.divf (aggOf src dst X)
          (broadcastInDim S50000x128 ![0, 1] bcast_S50000x1_S50000x128_0_1
            (broadcastInDim S50000x1 ![0] bcast_S50000_S50000x1_0
              (maximumf (degOf dst) (broadcastInDim S50000 ![] bcast_S_S50000 (constant S_ .f32 0x3F800000#32))))))
        Wn))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The reference's layer is the specification's layer over the graph's average. -/
theorem refLayer_eq (src dst : IVec S1600000 32) (X : FVec Ideal S50000x128 .f32) (Ws Wn : FVec Ideal S128x128 .f32)
    (b : FVec Ideal S128 .f32) :
    refLayer src dst X Ws Wn b
      = sageLayer X (nbrMean (aggOf src dst X) (degOf dst)) Ws Wn (shapeCast ⟨2, ![1, 128]⟩ b casts_128)
          (Ideal.ofBits .f32 0x00000000#32) := by
  unfold refLayer
  rw [dot_hidden_eq, dot_hidden_eq, host_mean_eq,
    host_biasRelu_eq _ b bcast_S1x128_S50000x128_0_1 bcast_S128_S1x128_1 bcast_S_S50000x128 casts_128]
  rfl

/-- The reference's result, its two layers folded. -/
theorem result_layers (m : (ℓ : Loc nD τ sig) → Buf (Elt Ideal) ℓ) (c : Dev nD) :
    Cert.ReferenceIdeal.Value.res_main_v55 (F := Ideal) m c
      = addf (Host.dotGeneral (φ₂ := .f32) dot_S50000x128_S128x47_S50000x47_1_0_0_1_n_n none
          (refLayer (m ((c.tc : Thread nD τ).loc main_arg1)) (m ((c.tc : Thread nD τ).loc main_arg2))
            (refLayer (m ((c.tc : Thread nD τ).loc main_arg1)) (m ((c.tc : Thread nD τ).loc main_arg2))
              (m ((c.tc : Thread nD τ).loc main_arg0)) (m ((c.tc : Thread nD τ).loc main_arg3))
              (m ((c.tc : Thread nD τ).loc main_arg4)) (m ((c.tc : Thread nD τ).loc main_arg5)))
            (m ((c.tc : Thread nD τ).loc main_arg6)) (m ((c.tc : Thread nD τ).loc main_arg7))
            (m ((c.tc : Thread nD τ).loc main_arg8)))
          (m ((c.tc : Thread nD τ).loc main_arg9) : FVec Ideal S128x47 .f32))
        (broadcastInDim S50000x47 ![0, 1] bcast_S1x47_S50000x47_0_1
          (broadcastInDim S1x47 ![1] bcast_S47_S1x47_1
            (m ((c.tc : Thread nD τ).loc main_arg10) : FVec Ideal S47 .f32))) := by
  unfold Cert.ReferenceIdeal.Value.res_main_v55
  rfl

/-- The reference's result is the network's scores of its arguments. -/
theorem result_eq (m : (ℓ : Loc nD τ sig) → Buf (Elt Ideal) ℓ) (c : Dev nD) :
    Cert.ReferenceIdeal.Value.res_main_v55 (F := Ideal) m c
      = Cert.Sage.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  rw [result_layers, refLayer_eq, refLayer_eq, dot_scores_eq,
    host_bias_eq _ _ bcast_S1x47_S50000x47_0_1 bcast_S47_S1x47_1 casts_47]
  rfl

end Cert.ReferenceIdeal.RefValue
end
-- ==== Proof.lean ====
/-
  A two-layer mean-aggregation graph network: the kernel program against the plain reference, on the extended reals.

  Both programs aggregate each node's incoming source rows by the same gather and scatter-add over the edge lists and
  count the in-degree by the same scatter-add of ones. The reference divides the aggregate by the degree capped below by
  one; the kernel program computes the reciprocal of the capped degree once and multiplies inside its kernels. The
  capped degree is at least one, hence not zero, and off zero a quotient and a product with the reciprocal are the same
  extended real, so the two averages agree for every input, finite or not. The kernels' matrix products over ten row
  tiles are the reference's whole products row by row (a layer acts on each node's row by itself, and the tiles cover
  the rows); narrowing to a shorter float format is the identity on the extended reals. The kernel program pads the score
  head to 128 columns with zeros and keeps the first 47: a column of the padded product reads only that column of the
  weights and that entry of the bias, which there are the unpadded ones.

  So both results are one function `Cert.Sage.G` of the eleven arguments: the reference's by rewriting its composed
  term, the kernel program's by following its memory through the host stretches and the two kernels. The three frames
  are the generated ones; the ideal pass rewrote nothing, so the idealization claim is trivial.
-/
import proofs.«414205_j87892210745360_3_alg».proof.Defs
import proofs.«414205_j87892210745360_3_alg».proof.Proof.Gen.Kernel
import proofs.«414205_j87892210745360_3_alg».proof.Proof.Gen.Kernel.Skeleton
import proofs.«414205_j87892210745360_3_alg».proof.Proof.Gen.Kernel.Launch
import proofs.«414205_j87892210745360_3_alg».proof.Proof.Gen.Kernel.Points
import proofs.«414205_j87892210745360_3_alg».proof.Proof.Gen.Kernel.Frame
import proofs.«414205_j87892210745360_3_alg».proof.Proof.Gen.KernelIdeal
import proofs.«414205_j87892210745360_3_alg».proof.Proof.Gen.KernelIdeal.Skeleton
import proofs.«414205_j87892210745360_3_alg».proof.Proof.Gen.KernelIdeal.Launch
import proofs.«414205_j87892210745360_3_alg».proof.Proof.Gen.KernelIdeal.Points
import proofs.«414205_j87892210745360_3_alg».proof.Proof.Gen.KernelIdeal.Frame
import proofs.«414205_j87892210745360_3_alg».proof.Proof.Gen.ReferenceIdeal
import proofs.«414205_j87892210745360_3_alg».proof.Proof.Gen.ReferenceIdeal.Run
import proofs.«414205_j87892210745360_3_alg».proof.Proof.Gen.Pre_finite_inputs
import proofs.«414205_j87892210745360_3_alg».proof.Proof.KRun
import proofs.«414205_j87892210745360_3_alg».proof.Proof.KValue
import proofs.«414205_j87892210745360_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched: the generated frame. -/
theorem frame_kernel : Cert.frame_Kernel := fun m ρ _ => Cert.Kernel.Gen.frame m ρ

/-- The same of the idealized kernel program. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the network's scores `G` of the arguments. -/
theorem algebraic : Cert.algebraic_KernelIdeal_ReferenceIdeal := by
  intro m ρ m' ρ' _ hagree
  refine ⟨fun c => Cert.Sage.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.KValue.result_eq m ρ c), (h c).2⟩)
      (Cert.KernelIdeal.GenRun.run_result m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefValue.result_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
